-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S640x16 : Shape := ⟨2, ![640, 16]⟩
abbrev S16 : Shape := ⟨1, ![16]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S640x16 : S_.BroadcastsInDim S640x16 (![] : Fin 0 → Fin S640x16.rank)
  reducesTo_S640x16_S_d0_1 : S640x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S128 .f32) (main_arg8 : FVec F S640x16 .f32) (main_arg9 : FVec F S16 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S640x16 .f32 := Host.absf main_arg8
  let main_cst_14 : FVec F S_ .f32 := constant S_ .f32 0x7F800000#32
  let main_v40 : FVec F S640x16 .f32 := broadcastInDim S640x16 ![] bcast_S_S640x16 main_cst_14
  let main_v41 : IVec S640x16 1 := cmpf .olt main_v39 main_v40
  let main_c_15 : IVec S_ 1 := constantI S_ 1 1#1
  let main_v42 : IVec S_ 1 := (fun x v => Host.reduce IntOp.andi x v reducesTo_S640x16_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S256x128 .f32) (main_arg7 : FVec F S128 .f32) (main_arg8 : FVec F S640x16 .f32) (main_arg9 : FVec F S16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x512 .f32) (main_arg1 : FVec F S16384x16384 .f32) (main_arg2 : FVec F S512x256 .f32) (main_arg3 : FVec F S256 .f32) (main_arg4 : FVec F S256x256 .f32) (main_arg5 : FVec F S256 .f32) (main_arg6 : FVec F S256x128 .f32) (main_arg7 : FVec F S128 .f32) (main_arg8 : FVec F S640x16 .f32) (main_arg9 : FVec F S16 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S16384x512 : Shape := ⟨2, ![16384, 512]⟩
abbrev S16384x16384 : Shape := ⟨2, ![16384, 16384]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S640x16 : Shape := ⟨2, ![640, 16]⟩
abbrev S16 : Shape := ⟨1, ![16]⟩
abbrev S256x16 : Shape := ⟨2, ![256, 16]⟩
abbrev S128x16 : Shape := ⟨2, ![128, 16]⟩
abbrev S16384x256 : Shape := ⟨2, ![16384, 256]⟩
abbrev S2048x512 : Shape := ⟨2, ![2048, 512]⟩
abbrev S2048x256 : Shape := ⟨2, ![2048, 256]⟩
abbrev S1x256 : Shape := ⟨2, ![1, 256]⟩
abbrev S128x16384 : Shape := ⟨2, ![128, 16384]⟩
abbrev S128x256 : Shape := ⟨2, ![128, 256]⟩
abbrev S16384x128 : Shape := ⟨2, ![16384, 128]⟩
abbrev S256x16384 : Shape := ⟨2, ![256, 16384]⟩
abbrev S1x128 : Shape := ⟨2, ![1, 128]⟩
abbrev S1x16 : Shape := ⟨2, ![1, 16]⟩
abbrev S16384x16 : Shape := ⟨2, ![16384, 16]⟩
abbrev S256x1 : Shape := ⟨2, ![256, 1]⟩

abbrev nBuf : Space → Nat
  | .hbm => 30
  | .vmem => 39
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S640x16, .f32⟩
  | .hbm, ⟨9, _⟩ => ⟨S16, .f32⟩
  | .hbm, ⟨10, _⟩ => ⟨S512x256, .bf16⟩
  | .hbm, ⟨11, _⟩ => ⟨S256x256, .bf16⟩
  | .hbm, ⟨12, _⟩ => ⟨S256x128, .bf16⟩
  | .hbm, ⟨13, _⟩ => ⟨S256x16, .f32⟩
  | .hbm, ⟨14, _⟩ => ⟨S256x16, .bf16⟩
  | .hbm, ⟨15, _⟩ => ⟨S256x16, .f32⟩
  | .hbm, ⟨16, _⟩ => ⟨S256x16, .bf16⟩
  | .hbm, ⟨17, _⟩ => ⟨S128x16, .f32⟩
  | .hbm, ⟨18, _⟩ => ⟨S128x16, .bf16⟩
  | .hbm, ⟨19, _⟩ => ⟨S16384x256, .bf16⟩
  | .hbm, ⟨20, _⟩ => ⟨S1x256, .f32⟩
  | .hbm, ⟨21, _⟩ => ⟨S16384x256, .f32⟩
  | .hbm, ⟨22, _⟩ => ⟨S16384x16384, .bf16⟩
  | .hbm, ⟨23, _⟩ => ⟨S16384x256, .bf16⟩
  | .hbm, ⟨24, _⟩ => ⟨S1x256, .f32⟩
  | .hbm, ⟨25, _⟩ => ⟨S16384x256, .f32⟩
  | .hbm, ⟨26, _⟩ => ⟨S16384x128, .bf16⟩
  | .hbm, ⟨27, _⟩ => ⟨S1x128, .f32⟩
  | .hbm, ⟨28, _⟩ => ⟨S1x16, .f32⟩
  | .hbm, ⟨29, _⟩ => ⟨S16384x16, .f32⟩
  | .local _ .vmem, ⟨0, _⟩ => ⟨S2048x512, .f32⟩
  | .local _ .vmem, ⟨1, _⟩ => ⟨S2048x512, .f32⟩
  | .local _ .vmem, ⟨2, _⟩ => ⟨S512x256, .bf16⟩
  | .local _ .vmem, ⟨3, _⟩ => ⟨S2048x256, .bf16⟩
  | .local _ .vmem, ⟨4, _⟩ => ⟨S2048x256, .bf16⟩
  | .local _ .vmem, ⟨5, _⟩ => ⟨S128x16384, .f32⟩
  | .local _ .vmem, ⟨6, _⟩ => ⟨S128x16384, .f32⟩
  | .local _ .vmem, ⟨7, _⟩ => ⟨S16384x256, .bf16⟩
  | .local _ .vmem, ⟨8, _⟩ => ⟨S1x256, .f32⟩
  | .local _ .vmem, ⟨9, _⟩ => ⟨S256x256, .bf16⟩
  | .local _ .vmem, ⟨10, _⟩ => ⟨S128x256, .f32⟩
  | .local _ .vmem, ⟨11, _⟩ => ⟨S128x256, .f32⟩
  | .local _ .vmem, ⟨12, _⟩ => ⟨S128x16384, .bf16⟩
  | .local _ .vmem, ⟨13, _⟩ => ⟨S128x16384, .bf16⟩
  | .local _ .vmem, ⟨14, _⟩ => ⟨S128x256, .bf16⟩
  | .local _ .vmem, ⟨15, _⟩ => ⟨S128x256, .bf16⟩
  | .local _ .vmem, ⟨16, _⟩ => ⟨S256x16384, .bf16⟩
  | .local _ .vmem, ⟨17, _⟩ => ⟨S256x16384, .bf16⟩
  | .local _ .vmem, ⟨18, _⟩ => ⟨S16384x256, .bf16⟩
  | .local _ .vmem, ⟨19, _⟩ => ⟨S1x256, .f32⟩
  | .local _ .vmem, ⟨20, _⟩ => ⟨S256x128, .bf16⟩
  | .local _ .vmem, ⟨21, _⟩ => ⟨S256x256, .f32⟩
  | .local _ .vmem, ⟨22, _⟩ => ⟨S256x256, .f32⟩
  | .local _ .vmem, ⟨23, _⟩ => ⟨S256x128, .bf16⟩
  | .local _ .vmem, ⟨24, _⟩ => ⟨S256x128, .bf16⟩
  | .local _ .vmem, ⟨25, _⟩ => ⟨S256x16384, .bf16⟩
  | .local _ .vmem, ⟨26, _⟩ => ⟨S256x16384, .bf16⟩
  | .local _ .vmem, ⟨27, _⟩ => ⟨S16384x128, .bf16⟩
  | .local _ .vmem, ⟨28, _⟩ => ⟨S1x128, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x16, .bf16⟩
  | .local _ .vmem, ⟨34, _⟩ => ⟨S256x16, .bf16⟩
  | .local _ .vmem, ⟨35, _⟩ => ⟨S128x16, .bf16⟩
  | .local _ .vmem, ⟨36, _⟩ => ⟨S1x16, .f32⟩
  | .local _ .vmem, ⟨37, _⟩ => ⟨S256x16, .f32⟩
  | .local _ .vmem, ⟨38, _⟩ => ⟨S256x16, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg9_0 : Ref sig .tc := ⟨.vmem, 37, rfl⟩
abbrev cc3_stg9_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem3_1 : DmaSem sig := 30
abbrev cc3_sem4_0 : DmaSem sig := 31
abbrev cc3_sem4_1 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem9_0 : DmaSem sig := 37
abbrev cc3_sem9_1 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x16384 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x16384 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16384x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x16384 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16384x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S256x16 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x16 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x16 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x16 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S256x16 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  bitsLt_bf16_f32 : FTy.bits .bf16 < FTy.bits .f32
  slices_S640x16_S256x16_0_0 : S640x16.Slices ![0, 0] S256x16
  slices_S640x16_S256x16_256_0 : S640x16.Slices ![256, 0] S256x16
  slices_S640x16_S128x16_512_0 : S640x16.Slices ![512, 0] S128x16
  inb_S2048x512_S2048x512_0_0 : ∀ a, (![0, 0] : Fin 2 → Nat) a + S2048x512.size a ≤ S2048x512.size a
  h_S2048x512 : 0 < S2048x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  shapeCasts_S256_S1x256 : S256.ShapeCasts S1x256
  inb_S128x16384_S128x16384_0_0 : ∀ a, (![0, 0] : Fin 2 → Nat) a + S128x16384.size a ≤ S128x16384.size a
  h_S128x16384 : 0 < S128x16384.numel
  packedbf16_S128x16384_S128x16384_0_0 : (Rect.unit (s := S128x16384) ![0, 0] S128x16384.size inb_S128x16384_S128x16384_0_0).PackedRows (EltTy.packing .bf16)
  inb_S16384x256_S16384x256_0_0 : ∀ a, (![0, 0] : Fin 2 → Nat) a + S16384x256.size a ≤ S16384x256.size a
  h_S16384x256 : 0 < S16384x256.numel
  shapeCasts_S16384x256_S16384x256 : S16384x256.ShapeCasts S16384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S128x256_S128x256_0_0 : (Rect.unit (s := S128x256) ![0, 0] S128x256.size inb_S128x256_S128x256_0_0).PackedRows (EltTy.packing .bf16)
  inb_S256x16384_S256x16384_0_0 : ∀ a, (![0, 0] : Fin 2 → Nat) a + S256x16384.size a ≤ S256x16384.size a
  h_S256x16384 : 0 < S256x16384.numel
  shapeCasts_S256x16384_S256x16384 : S256x16384.ShapeCasts S256x16384
  broadcasts_S1x256_S256x256 : S1x256.Broadcasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  packedbf16_S256x128_S256x128_0_0 : (Rect.unit (s := S256x128) ![0, 0] S256x128.size inb_S256x128_S256x128_0_0).PackedRows (EltTy.packing .bf16)
  shapeCasts_S128_S1x128 : S128.ShapeCasts S1x128
  shapeCasts_S16_S1x16 : S16.ShapeCasts S1x16
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S256x16 : S1x16.Broadcasts S256x16
  reduces_S256x16_S256 : S256x16.Reduces [1] S256
  shapeCasts_S256_S256x1 : S256.ShapeCasts S256x1
  broadcasts_S256x1_S256x16 : S256x1.Broadcasts S256x16
  dot_S2048x512_S512x256_S2048x256_1_0_0_1_n_n_wf : DotDims.WF S2048x512 S512x256 S2048x256 [1] [0] [0] [1] [] []
  dot_S128x16384_S16384x256_S128x256_1_0_0_1_n_n_wf : DotDims.WF S128x16384 S16384x256 S128x256 [1] [0] [0] [1] [] []
  dot_S128x256_S256x256_S128x256_1_0_0_1_n_n_wf : DotDims.WF S128x256 S256x256 S128x256 [1] [0] [0] [1] [] []
  dot_S256x16384_S16384x256_S256x256_1_0_0_1_n_n_wf : DotDims.WF S256x16384 S16384x256 S256x256 [1] [0] [0] [1] [] []
  dot_S256x256_S256x128_S256x128_1_0_0_1_n_n_wf : DotDims.WF S256x256 S256x128 S256x128 [1] [0] [0] [1] [] []
  dot_S256x16384_S16384x128_S256x128_1_0_0_1_n_n_wf : DotDims.WF S256x16384 S16384x128 S256x128 [1] [0] [0] [1] [] []
  dot_S256x256_S256x16_S256x16_1_0_0_1_n_n_wf : DotDims.WF S256x256 S256x16 S256x16 [1] [0] [0] [1] [] []
  dot_S256x128_S128x16_S256x16_1_0_0_1_n_n_wf : DotDims.WF S256x128 S128x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .bf16 = 32 ∨ (Rect.block (s := S16384x256) S2048x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16384.size a ≤ S16384x16384.size a
  hwx1_0 : ∀ i : grid1.Coords, EltTy.bits .f32 = 32 ∨ (Rect.block (s := S16384x16384) S128x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x256.size a ≤ S16384x256.size a
  hwx1_1 : ∀ i : grid1.Coords, EltTy.bits .bf16 = 32 ∨ (Rect.block (s := S16384x256) S16384x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S16384x256.size a
  hwx1_4 : ∀ i : grid1.Coords, EltTy.bits .f32 = 32 ∨ (Rect.block (s := S16384x256) S128x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x16384.size a ≤ S16384x16384.size a
  hwx1_5 : ∀ i : grid1.Coords, EltTy.bits .bf16 = 32 ∨ (Rect.block (s := S16384x16384) S128x16384.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S16384x256.size a
  hwx1_6 : ∀ i : grid1.Coords, EltTy.bits .bf16 = 32 ∨ (Rect.block (s := S16384x256) S128x256.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x16384.size a ≤ S16384x16384.size a
  hwx2_0 : ∀ i : grid2.Coords, EltTy.bits .bf16 = 32 ∨ (Rect.block (s := S16384x16384) S256x16384.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16384x256.size a ≤ S16384x256.size a
  hwx2_1 : ∀ i : grid2.Coords, EltTy.bits .bf16 = 32 ∨ (Rect.block (s := S16384x256) S16384x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .bf16 = 32 ∨ (Rect.block (s := S256x128) S256x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S16384x256.size a
  hwx2_4 : ∀ i : grid2.Coords, EltTy.bits .f32 = 32 ∨ (Rect.block (s := S16384x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S16384x128.size a
  hwx2_5 : ∀ i : grid2.Coords, EltTy.bits .bf16 = 32 ∨ (Rect.block (s := S16384x128) S256x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x16384.size a ≤ S16384x16384.size a
  hwx3_0 : ∀ i : grid3.Coords, EltTy.bits .bf16 = 32 ∨ (Rect.block (s := S16384x16384) S256x16384.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16384x128.size a ≤ S16384x128.size a
  hwx3_1 : ∀ i : grid3.Coords, EltTy.bits .bf16 = 32 ∨ (Rect.block (s := S16384x128) S16384x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S16384x256.size a
  hwx3_3 : ∀ i : grid3.Coords, EltTy.bits .f32 = 32 ∨ (Rect.block (s := S16384x256) S256x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S16384x256.size a
  hwx3_4 : ∀ i : grid3.Coords, EltTy.bits .f32 = 32 ∨ (Rect.block (s := S16384x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x16.size a ≤ S256x16.size a
  hwx3_5 : ∀ i : grid3.Coords, EltTy.bits .bf16 = 32 ∨ (Rect.block (s := S256x16) S256x16.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x16.size a ≤ S256x16.size a
  hwx3_6 : ∀ i : grid3.Coords, EltTy.bits .bf16 = 32 ∨ (Rect.block (s := S256x16) S256x16.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x16.size a ≤ S128x16.size a
  hwx3_7 : ∀ i : grid3.Coords, EltTy.bits .bf16 = 32 ∨ (Rect.block (s := S128x16) S128x16.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x16.size a ≤ S1x16.size a
  hwx3_8 : ∀ i : grid3.Coords, EltTy.bits .f32 = 32 ∨ (Rect.block (s := S1x16) S1x16.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S256x16.size a ≤ S16384x16.size a
  hwx3_9 : ∀ i : grid3.Coords, EltTy.bits .f32 = 32 ∨ (Rect.block (s := S16384x16) S256x16.size (cc3_transform_9 i) (hinb3_9 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S128x16384_S16384x256_S128x256_1_0_0_1_n_n : DotDims S128x16384 S16384x256 S128x256 where
  lhsContracting := [1]
  rhsContracting := [0]
  lhsNonContracting := [0]
  rhsNonContracting := [1]
  lhsBatch := []
  rhsBatch := []
  wf := dot_S128x16384_S16384x256_S128x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S256x16384_S16384x256_S256x256_1_0_0_1_n_n : DotDims S256x16384 S16384x256 S256x256 where
  lhsContracting := [1]
  rhsContracting := [0]
  lhsNonContracting := [0]
  rhsNonContracting := [1]
  lhsBatch := []
  rhsBatch := []
  wf := dot_S256x16384_S16384x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x16384_S16384x128_S256x128_1_0_0_1_n_n : DotDims S256x16384 S16384x128 S256x128 where
  lhsContracting := [1]
  rhsContracting := [0]
  lhsNonContracting := [0]
  rhsNonContracting := [1]
  lhsBatch := []
  rhsBatch := []
  wf := dot_S256x16384_S16384x128_S256x128_1_0_0_1_n_n_wf
def dot_S256x256_S256x16_S256x16_1_0_0_1_n_n : DotDims S256x256 S256x16 S256x16 where
  lhsContracting := [1]
  rhsContracting := [0]
  lhsNonContracting := [0]
  rhsNonContracting := [1]
  lhsBatch := []
  rhsBatch := []
  wf := dot_S256x256_S256x16_S256x16_1_0_0_1_n_n_wf
def dot_S256x128_S128x16_S256x16_1_0_0_1_n_n : DotDims S256x128 S128x16 S256x16 where
  lhsContracting := [1]
  rhsContracting := [0]
  lhsNonContracting := [0]
  rhsNonContracting := [1]
  lhsBatch := []
  rhsBatch := []
  wf := dot_S256x128_S128x16_S256x16_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S128x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S16384x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11_0) S128x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11_1) S128x16384.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v11_2) S128x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v11_1) S256x16384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11_2) S16384x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13_0) S256x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v13_1) S256x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v11_1) S256x16384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13_1) S16384x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v11_0) S256x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v13_0) S256x256.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v4) S256x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v6) S256x16.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v8) S128x16.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v15) S1x16.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v16) S256x16.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S16384x512 : Shape := ⟨2, ![16384, 512]⟩
abbrev S16384x16384 : Shape := ⟨2, ![16384, 16384]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S640x16 : Shape := ⟨2, ![640, 16]⟩
abbrev S16 : Shape := ⟨1, ![16]⟩
abbrev S16384x256 : Shape := ⟨2, ![16384, 256]⟩
abbrev S1x256 : Shape := ⟨2, ![1, 256]⟩
abbrev S_ : Shape := ⟨0, ![]⟩
abbrev S16384x128 : Shape := ⟨2, ![16384, 128]⟩
abbrev S1x128 : Shape := ⟨2, ![1, 128]⟩
abbrev S16384x640 : Shape := ⟨2, ![16384, 640]⟩
abbrev S16384x16 : Shape := ⟨2, ![16384, 16]⟩
abbrev S1x16 : Shape := ⟨2, ![1, 16]⟩
abbrev S16384 : Shape := ⟨1, ![16384]⟩
abbrev S16384x1 : Shape := ⟨2, ![16384, 1]⟩

abbrev nBuf : Space → Nat
  | .hbm => 51
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S640x16, .f32⟩
  | .hbm, ⟨9, _⟩ => ⟨S16, .f32⟩
  | .hbm, ⟨10, _⟩ => ⟨S16384x256, .f32⟩
  | .hbm, ⟨11, _⟩ => ⟨S16384x256, .f32⟩
  | .hbm, ⟨12, _⟩ => ⟨S1x256, .f32⟩
  | .hbm, ⟨13, _⟩ => ⟨S16384x256, .f32⟩
  | .hbm, ⟨14, _⟩ => ⟨S16384x256, .f32⟩
  | .hbm, ⟨15, _⟩ => ⟨S_, .f32⟩
  | .hbm, ⟨16, _⟩ => ⟨S16384x256, .f32⟩
  | .hbm, ⟨17, _⟩ => ⟨S16384x256, .f32⟩
  | .hbm, ⟨18, _⟩ => ⟨S16384x256, .f32⟩
  | .hbm, ⟨19, _⟩ => ⟨S16384x256, .f32⟩
  | .hbm, ⟨20, _⟩ => ⟨S1x256, .f32⟩
  | .hbm, ⟨21, _⟩ => ⟨S16384x256, .f32⟩
  | .hbm, ⟨22, _⟩ => ⟨S16384x256, .f32⟩
  | .hbm, ⟨23, _⟩ => ⟨S_, .f32⟩
  | .hbm, ⟨24, _⟩ => ⟨S16384x256, .f32⟩
  | .hbm, ⟨25, _⟩ => ⟨S16384x256, .f32⟩
  | .hbm, ⟨26, _⟩ => ⟨S16384x128, .f32⟩
  | .hbm, ⟨27, _⟩ => ⟨S16384x128, .f32⟩
  | .hbm, ⟨28, _⟩ => ⟨S1x128, .f32⟩
  | .hbm, ⟨29, _⟩ => ⟨S16384x128, .f32⟩
  | .hbm, ⟨30, _⟩ => ⟨S16384x128, .f32⟩
  | .hbm, ⟨31, _⟩ => ⟨S16384x640, .f32⟩
  | .hbm, ⟨32, _⟩ => ⟨S16384x16, .f32⟩
  | .hbm, ⟨33, _⟩ => ⟨S1x16, .f32⟩
  | .hbm, ⟨34, _⟩ => ⟨S16384x16, .f32⟩
  | .hbm, ⟨35, _⟩ => ⟨S16384x16, .f32⟩
  | .hbm, ⟨36, _⟩ => ⟨S_, .f32⟩
  | .hbm, ⟨37, _⟩ => ⟨S16384, .f32⟩
  | .hbm, ⟨38, _⟩ => ⟨S_, .f32⟩
  | .hbm, ⟨39, _⟩ => ⟨S16384, .f32⟩
  | .hbm, ⟨40, _⟩ => ⟨S16384, .f32⟩
  | .hbm, ⟨41, _⟩ => ⟨S16384x1, .f32⟩
  | .hbm, ⟨42, _⟩ => ⟨S16384x16, .f32⟩
  | .hbm, ⟨43, _⟩ => ⟨S16384x16, .f32⟩
  | .hbm, ⟨44, _⟩ => ⟨S16384x16, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S16384x1, .f32⟩
  | .hbm, ⟨49, _⟩ => ⟨S16384x16, .f32⟩
  | .hbm, ⟨50, _⟩ => ⟨S16384x16, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call2_cst : Ref sig .tc := ⟨.hbm, 36, rfl⟩
abbrev main_call2_v0 : Ref sig .tc := ⟨.hbm, 37, rfl⟩
abbrev main_call2_cst_0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_cst_1 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_v22 : Ref sig .tc := ⟨.hbm, 50, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  concatenates_S16384x256_S16384x256_S16384x128_S16384x640_d1 : Shape.Concatenates [S16384x256, S16384x256, S16384x128] S16384x640 1
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  reducesTo_S16384x16_S16384_d1 : S16384x16.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  dot_S16384x512_S512x256_S16384x256_1_0_0_1_n_n_wf : DotDims.WF S16384x512 S512x256 S16384x256 [1] [0] [0] [1] [] []
  dot_S16384x16384_S16384x256_S16384x256_1_0_0_1_n_n_wf : DotDims.WF S16384x16384 S16384x256 S16384x256 [1] [0] [0] [1] [] []
  dot_S16384x256_S256x256_S16384x256_1_0_0_1_n_n_wf : DotDims.WF S16384x256 S256x256 S16384x256 [1] [0] [0] [1] [] []
  dot_S16384x256_S256x128_S16384x128_1_0_0_1_n_n_wf : DotDims.WF S16384x256 S256x128 S16384x128 [1] [0] [0] [1] [] []
  dot_S16384x16384_S16384x128_S16384x128_1_0_0_1_n_n_wf : DotDims.WF S16384x16384 S16384x128 S16384x128 [1] [0] [0] [1] [] []
  dot_S16384x640_S640x16_S16384x16_1_0_0_1_n_n_wf : DotDims.WF S16384x640 S640x16 S16384x16 [1] [0] [0] [1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x640_S640x16_S16384x16_1_0_0_1_n_n : DotDims S16384x640 S640x16 S16384x16 where
  lhsContracting := [1]
  rhsContracting := [0]
  lhsNonContracting := [0]
  rhsNonContracting := [1]
  lhsBatch := []
  rhsBatch := []
  wf := dot_S16384x640_S640x16_S16384x16_1_0_0_1_n_n_wf

class Facts : Prop extends Facts₀ where

variable [Facts]
-- ==== Proof.Spec.lean ====
/-
  A three-layer graph-convolution network with a linear classifier, as whole-array functions on the extended reals.

  Arrays are functions from a rank-2 (or rank-1) index to an extended real.  The network is

    x₁ = max (adj · (x · W₁) + b₁) 0,   x₂ = max (adj · (x₁ · W₂) + b₂) 0,   x₃ = adj · (x₂ · W₃) + b₃,
    logits = [x₁ | x₂ | x₃] · Wl + bl,   result = logits − rowmax − log Σ exp (logits − rowmax)

  Every function below is defined row by row, so it commutes with taking a block of consecutive rows of its
  row operand (the "row block" lemmas); that is what lets a computation tiled over row blocks be read as one
  whole-array function.  Two laws join a tiled, split spelling to the plain one: a product with a matrix whose
  rows come in three slabs is the sum of the products with the slabs, and taking the maximum of a fold's own start
  value with the fold changes nothing.
-/
import Idealize.ShloMosaic.Lib.ValueIdx
import Idealize.ShloMosaic.PureOps.Ideal

noncomputable section

open scoped BigOperators

namespace Gcn

open Idealize.ShloMosaic Idealize.ShloMosaic.ValueIdx

/-- A rank-2 array of extended reals. -/
abbrev A2 (m n : Nat) : Type := (⟨2, ![m, n]⟩ : Shape).Idx → EReal
/-- A rank-1 array of extended reals. -/
abbrev A1 (n : Nat) : Type := (⟨1, ![n]⟩ : Shape).Idx → EReal

/-- The value the all-zero f32 word denotes (it is zero; the functions never need to know). -/
abbrev zeroE : EReal := Ideal.ofBits .f32 0x00000000#32
/-- The value the f32 word of minus infinity denotes: where a row maximum starts. -/
abbrev ninfE : EReal := Ideal.ofBits .f32 0xFF800000#32

variable {m k n r c : Nat}

/-! ## The functions -/

/-- The matrix product: entry (p, q) is the sum over i of a (p, i) · b (i, q). -/
def mm (a : A2 m k) (b : A2 k n) : A2 m n := fun j => ∑ i : Fin k, a (ix2 (j 0) i) * b (ix2 i (j 1))

theorem mm_apply (a : A2 m k) (b : A2 k n) (p : Fin m) (q : Fin n) :
    mm a b (ix2 p q) = ∑ i : Fin k, a (ix2 p i) * b (ix2 i q) := rfl

/-- A vector as the one row of a [1, n] array. -/
def rowOf (b : A1 n) : A2 1 n := fun j => b (ix1 (j 1))

/-- One graph convolution before its activation: adj · s plus the bias row added to every row. -/
def conv (adj : A2 m k) (s : A2 k n) (b : A2 1 n) : A2 m n := fun j => mm adj s j + b (ix2 0 (j 1))

theorem conv_apply (adj : A2 m k) (s : A2 k n) (b : A2 1 n) (p : Fin m) (q : Fin n) :
    conv adj s b (ix2 p q) = mm adj s (ix2 p q) + b (ix2 0 q) := rfl

/-- The rectifier: the maximum with the zero word's value, entry by entry. -/
def relu (x : A2 m n) : A2 m n := fun j => max (x j) zeroE

/-- A hidden layer: the rectified convolution. -/
def layer (adj : A2 m k) (s : A2 k n) (b : A2 1 n) : A2 m n := relu (conv adj s b)

theorem layer_apply (adj : A2 m k) (s : A2 k n) (b : A2 1 n) (p : Fin m) (q : Fin n) :
    layer adj s b (ix2 p q) = max (mm adj s (ix2 p q) + b (ix2 0 q)) zeroE := rfl

/-- The classifier's logits from the three layers' outputs and the three row slabs of its weight:
    ((x₁ · w₁ + x₂ · w₂) + x₃ · w₃) + bias row. -/
def logits3 {h1 h2 h3 : Nat} (x1 : A2 m h1) (x2 : A2 m h2) (x3 : A2 m h3) (w1 : A2 h1 c) (w2 : A2 h2 c) (w3 : A2 h3 c)
    (bl : A2 1 c) : A2 m c :=
  fun j => ((mm x1 w1 j + mm x2 w2 j) + mm x3 w3 j) + bl (ix2 0 (j 1))

/-- A row's maximum: the fold of max over the row's entries from minus infinity's word. -/
def rowMax (l : A2 m c) (p : Fin m) : EReal :=
  (Finset.univ : Finset (Fin c)).fold max ninfE (fun q => l (ix2 p q))

/-- The logarithm of the row's sum of exponentials of the entries shifted by the row maximum. -/
def rowLse (l : A2 m c) (p : Fin m) : EReal :=
  Ideal.log (∑ q : Fin c, Ideal.exp (l (ix2 p q) - rowMax l p))

/-- The log-softmax along rows, in its shifted form: (l − rowmax) − log Σ exp (l − rowmax). -/
def logSoftmax (l : A2 m c) : A2 m c := fun j => (l j - rowMax l (j 0)) - rowLse l (j 0)

theorem logSoftmax_apply (l : A2 m c) (p : Fin m) (q : Fin c) :
    logSoftmax l (ix2 p q) = (l (ix2 p q) - rowMax l p) - rowLse l p := rfl

/-! ## Blocks of consecutive rows -/

/-- Rows t·r … t·r + r − 1 of an array, as an [r, n] array. -/
def rowBlock (r t : Nat) (h : t * r + r ≤ m) (x : A2 m n) : A2 r n :=
  fun j => x (ix2 ⟨t * r + (j 0).val, by have := idx2_lt0 j; omega⟩ (j 1))

theorem rowBlock_apply (t : Nat) (h : t * r + r ≤ m) (x : A2 m n) (p : Fin r) (q : Fin n) :
    rowBlock r t h x (ix2 p q) = x (ix2 ⟨t * r + p.val, by have := p.isLt; omega⟩ q) := rfl

/-- The product is row-local in its left operand. -/
theorem mm_rowBlock (t : Nat) (h : t * r + r ≤ m) (a : A2 m k) (b : A2 k n) :
    mm (rowBlock r t h a) b = rowBlock r t h (mm a b) := rfl

theorem conv_rowBlock (t : Nat) (h : t * r + r ≤ m) (adj : A2 m k) (s : A2 k n) (b : A2 1 n) :
    conv (rowBlock r t h adj) s b = rowBlock r t h (conv adj s b) := rfl

theorem layer_rowBlock (t : Nat) (h : t * r + r ≤ m) (adj : A2 m k) (s : A2 k n) (b : A2 1 n) :
    layer (rowBlock r t h adj) s b = rowBlock r t h (layer adj s b) := rfl

theorem logits3_rowBlock {h1 h2 h3 : Nat} (t : Nat) (h : t * r + r ≤ m) (x1 : A2 m h1) (x2 : A2 m h2) (x3 : A2 m h3)
    (w1 : A2 h1 c) (w2 : A2 h2 c) (w3 : A2 h3 c) (bl : A2 1 c) :
    logits3 (rowBlock r t h x1) (rowBlock r t h x2) (rowBlock r t h x3) w1 w2 w3 bl
      = rowBlock r t h (logits3 x1 x2 x3 w1 w2 w3 bl) := rfl

theorem logSoftmax_rowBlock (t : Nat) (h : t * r + r ≤ m) (l : A2 m c) :
    logSoftmax (rowBlock r t h l) = rowBlock r t h (logSoftmax l) := rfl

/-! ## The two joining laws -/

/-- Rows o … o + h − 1 of a matrix, as an [h, c] array. -/
def rowSlab {K : Nat} (h o : Nat) (ho : o + h ≤ K) (w : A2 K c) : A2 h c :=
  fun j => w (ix2 ⟨o + (j 0).val, by have := idx2_lt0 j; omega⟩ (j 1))

theorem rowSlab_apply {K : Nat} (h o : Nat) (ho : o + h ≤ K) (w : A2 K c) (i : Fin h) (q : Fin c) :
    rowSlab h o ho w (ix2 i q) = w (ix2 ⟨o + i.val, by have := i.isLt; omega⟩ q) := rfl

/-- A sum over h₁ + h₂ + h₃ terms is the sum of its three consecutive stretches. -/
theorem sum_three {h1 h2 h3 : Nat} (f : Fin (h1 + h2 + h3) → EReal) :
    ∑ i : Fin (h1 + h2 + h3), f i
      = (∑ i : Fin h1, f ⟨i.val, by have := i.isLt; omega⟩ + ∑ i : Fin h2, f ⟨h1 + i.val, by have := i.isLt; omega⟩)
        + ∑ i : Fin h3, f ⟨h1 + h2 + i.val, by have := i.isLt; omega⟩ := by
  rw [Fin.sum_univ_add, Fin.sum_univ_add]
  rfl

/-- THE SPLIT: if xc is x₁, x₂, x₃ side by side (columns 0 … h₁−1, the next h₂, the last h₃) and w₁, w₂, w₃ are the
    corresponding row slabs of w, the product xc · w is (x₁ · w₁ + x₂ · w₂) + x₃ · w₃, entry by entry.  Only
    commutativity and associativity of the sum are used: no entry need be finite. -/
theorem mm_split3 {h1 h2 h3 : Nat} (x1 : A2 m h1) (x2 : A2 m h2) (x3 : A2 m h3) (xc : A2 m (h1 + h2 + h3))
    (w : A2 (h1 + h2 + h3) c) (w1 : A2 h1 c) (w2 : A2 h2 c) (w3 : A2 h3 c)
    (c1 : ∀ (p : Fin m) (i : Fin h1), xc (ix2 p ⟨i.val, by have := i.isLt; omega⟩) = x1 (ix2 p i))
    (c2 : ∀ (p : Fin m) (i : Fin h2), xc (ix2 p ⟨h1 + i.val, by have := i.isLt; omega⟩) = x2 (ix2 p i))
    (c3 : ∀ (p : Fin m) (i : Fin h3), xc (ix2 p ⟨h1 + h2 + i.val, by have := i.isLt; omega⟩) = x3 (ix2 p i))
    (e1 : ∀ (i : Fin h1) (q : Fin c), w1 (ix2 i q) = w (ix2 ⟨i.val, by have := i.isLt; omega⟩ q))
    (e2 : ∀ (i : Fin h2) (q : Fin c), w2 (ix2 i q) = w (ix2 ⟨h1 + i.val, by have := i.isLt; omega⟩ q))
    (e3 : ∀ (i : Fin h3) (q : Fin c), w3 (ix2 i q) = w (ix2 ⟨h1 + h2 + i.val, by have := i.isLt; omega⟩ q))
    (p : Fin m) (q : Fin c) :
    mm xc w (ix2 p q) = (mm x1 w1 (ix2 p q) + mm x2 w2 (ix2 p q)) + mm x3 w3 (ix2 p q) := by
  rw [mm_apply, mm_apply, mm_apply, mm_apply, sum_three]
  congr 1
  · congr 1
    · exact Finset.sum_congr rfl fun i _ => by rw [c1, e1]
    · exact Finset.sum_congr rfl fun i _ => by rw [c2, e2]
  · exact Finset.sum_congr rfl fun i _ => by rw [c3, e3]

/-- The maximum of a fold's start value with the fold is the fold: the fold is never below where it starts. -/
theorem max_fold_start {ι : Type} (s : Finset ι) (b : EReal) (f : ι → EReal) :
    max b (s.fold max b f) = s.fold max b f :=
  max_eq_right ((Finset.le_fold_max b).mpr (Or.inl le_rfl))

/-! ## The network at this certificate's sizes

16384 nodes with 512 features; hidden widths 256 and 256, output width 128; 16 classes; the classifier's
weight has 640 = 256 + 256 + 128 rows. -/

/-- The first hidden layer. -/
def hid1 (x : A2 16384 512) (adj : A2 16384 16384) (W1 : A2 512 256) (b1 : A1 256) : A2 16384 256 :=
  layer adj (mm x W1) (rowOf b1)

/-- The second hidden layer. -/
def hid2 (x : A2 16384 512) (adj : A2 16384 16384) (W1 : A2 512 256) (b1 : A1 256) (W2 : A2 256 256) (b2 : A1 256) :
    A2 16384 256 :=
  layer adj (mm (hid1 x adj W1 b1) W2) (rowOf b2)

/-- The third convolution (no activation). -/
def out3 (x : A2 16384 512) (adj : A2 16384 16384) (W1 : A2 512 256) (b1 : A1 256) (W2 : A2 256 256) (b2 : A1 256)
    (W3 : A2 256 128) (b3 : A1 128) : A2 16384 128 :=
  conv adj (mm (hid2 x adj W1 b1 W2 b2) W3) (rowOf b3)

/-- THE NETWORK: the row log-softmax of the classifier's logits over the three layers' outputs. -/
def net (x : A2 16384 512) (adj : A2 16384 16384) (W1 : A2 512 256) (b1 : A1 256) (W2 : A2 256 256) (b2 : A1 256)
    (W3 : A2 256 128) (b3 : A1 128) (Wl : A2 640 16) (bl : A1 16) : A2 16384 16 :=
  logSoftmax (logits3 (hid1 x adj W1 b1) (hid2 x adj W1 b1 W2 b2) (out3 x adj W1 b1 W2 b2 W3 b3)
    (rowSlab 256 0 (by omega) Wl) (rowSlab 256 256 (by omega) Wl) (rowSlab 128 512 (by omega) Wl) (rowOf bl))

end Gcn

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.Region0.lean ====
/-
  The first pallas_call, read as a whole-array function.

  Its grid has 8 points; point t takes rows 2048·t … 2048·t + 2047 of the feature array (window 0, block [2048, 512]),
  the whole weight (window 1, block [512, 256]), and writes rows 2048·t … of the result (window 2, block [2048, 256]):
  the block's matrix product with the weight.  A matrix product is row-local in its left operand, so the eight blocks
  are the row blocks of ONE product, and they tile the result array.
-/
import proofs.«162995_j33741263077612_2_alg».proof.Proof.Gen.KernelIdeal.Frame
import proofs.«162995_j33741263077612_2_alg».proof.Proof.Spec
import proofs.«162995_j33741263077612_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Gcn.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

-- The TensorCore's buffer contents when the region is entered: every statement below holds at any such contents.
variable (V : (c : Dev nD) → (b : Ref sig .tc) → Buf (Elt Ideal) ((c : Thread nD τ).loc b))

/-! ## The body's arithmetic -/

/-- A whole-buffer access starts at offset zero on both axes. -/
theorem hz : (![0, 0] : Fin 2 → Nat) = fun _ => 0 := funext fun a => by fin_cases a <;> rfl

/-- The body's arithmetic on its two loaded blocks.  On extended reals both roundings are the identity, the cast to
    the same shape is the identity, and a product accumulated onto zero is, at entry (p, q), the sum over i of
    x0 (p, i) · x1 (i, q): the matrix product of the two blocks. -/
theorem pay_eq (x0 : FVec Ideal S2048x512 .f32) (x1 : FVec Ideal S512x256 .bf16) :
    k0_pay1 (F := Ideal) x0 x1 = Gcn.mm x0 x1 := by
  funext j
  obtain ⟨p, q, rfl⟩ : ∃ (p : Fin 2048) (q : Fin 256), j = ix2 p q := ⟨j 0, j 1, eq_ix2 j⟩
  unfold k0_pay1
  show matmul dot_S2048x512_S512x256_S2048x256_1_0_0_1_n_n none (truncf .bf16 x0 bitsLt_bf16_f32)
      (shapeCast S512x256 x1 shapeCasts_S512x256_S512x256) (constant S2048x256 .f32 0x00000000#32) (ix2 p q) = _
  refine (PlainDot.matmul_zero_apply ⟨rfl, rfl, rfl, rfl, rfl, rfl⟩ none _ _ p q).trans ?_
  rw [shapeCast_self]
  rfl

/-- What the body leaves in the output's buffer is that product: its one store covers the buffer, and its loads
    read the whole input buffers. -/
theorem out_eq (x0 : Vec Ideal S2048x512 .f32) (x1 : Vec Ideal S512x256 .bf16) :
    out0_2 (F := Ideal) x0 x1 = Gcn.mm x0 x1 := by
  unfold out0_2
  rw [View.canon_unit_zero hz]
  simp only [View.ld_unit_zero (S := S2048x512) hz, View.ld_unit_zero (S := S512x256) hz]
  exact pay_eq x0 x1

/-! ## The blocks -/

/-- The block indices at grid point t: windows 0 and 2 take row block t (column block 0), window 1 always block
    (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row block t of 2048 rows lies inside the 16384 rows: there are 8 points. -/
theorem rows_le (t : Fin cfg0.N) : t.val * 2048 + 2048 ≤ 16384 := by
  have hN : cfg0.N = 8 := N_0
  have ht : t.val < cfg0.N := t.isLt
  omega

/-- Window 0's block at point t, read off a [16384, 512] array, is the array's row block t: entry (p, q) of the
    block is entry (2048·t + p, q) of the array. -/
theorem read_blk0 (t : Fin cfg0.N) (h : t.val * 2048 + 2048 ≤ 16384) (X : Gcn.A2 16384 512) :
    ((cfg0.win 0).blk t).view.read (Elt Ideal) X = Gcn.rowBlock 2048 t.val h X := by
  obtain ⟨e0, e1, -, -, -, -⟩ := idx_facts t
  funext y
  rw [View.read_apply]
  show X _ = X (ix2 ⟨t.val * 2048 + (y 0).val, _⟩ (y 1))
  refine congrArg X ?_
  funext a; apply Fin.ext
  match a with
  | ⟨0, _⟩ => show win0_0.index t (0 : Fin 2) * 2048 + 1 * (y 0).val = t.val * 2048 + (y 0).val; omega
  | ⟨1, _⟩ => show win0_0.index t (1 : Fin 2) * 512 + 1 * (y 1).val = (y 1).val; omega

/-- Window 1's block at every point, read off a [512, 256] array, is the array. -/
theorem read_blk1 (t : Fin cfg0.N) (X : Gcn.A2 512 256) :
    ((cfg0.win 1).blk t).view.read (Elt Ideal) X = X := by
  obtain ⟨-, -, e0, e1, -, -⟩ := idx_facts t
  funext y
  rw [View.read_apply]
  show X _ = X y
  refine congrArg X ?_
  funext a; apply Fin.ext
  match a with
  | ⟨0, _⟩ => show win0_1.index t (0 : Fin 2) * 512 + 1 * (y 0).val = (y 0).val; omega
  | ⟨1, _⟩ => show win0_1.index t (1 : Fin 2) * 256 + 1 * (y 1).val = (y 1).val; omega

/-- Window 2's block at point t, read off a [16384, 256] array, is the array's row block t. -/
theorem read_blk2 (t : Fin cfg0.N) (h : t.val * 2048 + 2048 ≤ 16384) (X : Gcn.A2 16384 256) :
    ((cfg0.win 2).blk t).view.read (Elt Ideal) X = Gcn.rowBlock 2048 t.val h X := by
  obtain ⟨-, -, -, -, e0, e1⟩ := idx_facts t
  funext y
  rw [View.read_apply]
  show X _ = X (ix2 ⟨t.val * 2048 + (y 0).val, _⟩ (y 1))
  refine congrArg X ?_
  funext a; apply Fin.ext
  match a with
  | ⟨0, _⟩ => show win0_2.index t (0 : Fin 2) * 2048 + 1 * (y 0).val = t.val * 2048 + (y 0).val; omega
  | ⟨1, _⟩ => show win0_2.index t (1 : Fin 2) * 256 + 1 * (y 1).val = (y 1).val; omega

/-- The feature block the body loads at point t is row block t of the feature array. -/
theorem iblk_0 (c : Dev nD) (t : Fin cfg0.N) (h : t.val * 2048 + 2048 ≤ 16384) :
    iblk0 (F := Ideal) V c 0 t = Gcn.rowBlock 2048 t.val h (V c main_arg0) := by
  unfold iblk0
  exact read_blk0 t h (V c main_arg0)

/-- The weight block the body loads at every point is the weight array. -/
theorem iblk_1 (c : Dev nD) (t : Fin cfg0.N) : iblk0 (F := Ideal) V c 1 t = V c main_v0 := by
  unfold iblk0
  exact read_blk1 t (V c main_v0)

/-! ## What each point writes back, and the array they tile -/

/-- Point t writes back row block t of the one product of the two arrays: the body's product of row block t of the
    features with the weight is row block t of the whole product, the product being row-local in its left operand. -/
theorem flushed_eq (c : Dev nD) (t : Fin cfg0.N) :
    (dat0 (F := Ideal) V c).flushed 2 t
      = ((cfg0.win 2).blk t).view.read (Elt Ideal) (Gcn.mm (V c main_arg0) (V c main_v0)) := by
  have h : t.val * 2048 + 2048 ≤ 16384 := rows_le t
  show (cfg0.win 2).cut (grid0.coords t) ((dat0 (F := Ideal) V c).after 2 t) = _
  rw [after0_2, out_eq (iblk0 V c 0 t) (iblk0 V c 1 t), iblk_0 V c t h, iblk_1 V c t, Gcn.mm_rowBlock,
    read_blk2 t h]
  rfl

/-- An index of the result array is in point t's block iff each coordinate is in the block's range on its axis. -/
theorem mem_blk (t : Fin cfg0.N) (i : S16384x256.Idx) :
    i ∈ ((cfg0.win 2).blk t).view.set ↔ ∀ a : Fin 2, win0_2.index t a * S2048x256.size a ≤ (i a).val
      ∧ (i a).val < win0_2.index t a * S2048x256.size a + S2048x256.size a := by
  show i ∈ ((View.whole main_v9).slice (win0_2.rect t)).set ↔ _
  rw [View.set_slice_whole, Rect.mem_set_unit]
  exact Iff.rfl

/-- The eight row blocks tile the result array: row r is in the block of point r / 2048, and every point writes its
    block back. -/
theorem cover (i : S16384x256.Idx) :
    ∃ t : Fin cfg0.N, (cfg0.win 2).flush t = true ∧ i ∈ ((cfg0.win 2).blk t).view.set := by
  have hi0 : (i 0).val < 16384 := (i 0).isLt
  have hi1 : (i 1).val < 256 := (i 1).isLt
  have hN : cfg0.N = 8 := N_0
  obtain ⟨t, ht⟩ : ∃ t : Fin cfg0.N, t.val = (i 0).val / 2048 := ⟨⟨(i 0).val / 2048, by omega⟩, rfl⟩
  obtain ⟨-, -, -, -, e0, e1⟩ := idx_facts t
  refine ⟨t, flush0_2 t, ?_⟩
  rw [mem_blk]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 256 ≤ (i 1).val ∧ (i 1).val < win0_2.index t (1 : Fin 2) * 256 + 256
    omega

/-- After the region, the array of window 2 is the matrix product of window 0's array with window 1's. -/
theorem value_2 (c : Dev nD) :
    (dat0 (F := Ideal) V c).arrAt 2 cfg0.N = Gcn.mm (V c main_arg0) (V c main_v0) :=
  (dat0 (F := Ideal) V c).arrAt_eq_of_cover 2 (Gcn.mm (V c main_arg0) (V c main_v0))
    (fun t _ => flushed_eq V c t) cover

end Gcn.Region0

end
-- ==== Proof.Region1.lean ====
/-
  The second pallas_call, read as whole-array functions.

  Its grid has 128 points; point t takes rows 128·t … 128·t + 127 of the adjacency array (window 0, block [128, 16384]),
  the whole support array (window 1, [16384, 256]), the bias row (window 2, [1, 256]) and the next weight (window 3,
  [256, 256]); it writes the same rows of three arrays: the hidden layer max (adj · s + b) 0 (window 4, block
  [128, 256]), a copy of the adjacency rows (window 5, block [128, 16384]), and the hidden layer's product with the
  next weight (window 6, block [128, 256]).  All three are row-local in the adjacency operand, so the 128 blocks are
  the row blocks of whole-array functions and tile their arrays.
-/
import proofs.«162995_j33741263077612_2_alg».proof.Proof.Gen.KernelIdeal.Frame
import proofs.«162995_j33741263077612_2_alg».proof.Proof.Spec
import proofs.«162995_j33741263077612_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Gcn.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

-- The TensorCore's buffer contents when the region is entered: every statement below holds at any such contents.
variable (V : (c : Dev nD) → (b : Ref sig .tc) → Buf (Elt Ideal) ((c : Thread nD τ).loc b))

/-- The copy's payload: the format change is the identity on extended reals. -/
theorem pay_copy (x0 : FVec Ideal S128x16384 .f32) :
    (k1_pay1 (F := Ideal) x0 : A2 128 16384) = x0 := rfl

/-- The first product of the body, at an entry: the sum of products of the adjacency rows with the support. -/
theorem pay_prod1 (x0 : FVec Ideal S128x16384 .f32) (x1 : FVec Ideal S16384x256 .bf16) (p : Fin 128) (q : Fin 256) :
    matmul dot_S128x16384_S16384x256_S128x256_1_0_0_1_n_n none (k1_pay1 (F := Ideal) x0)
        (shapeCast S16384x256 x1 shapeCasts_S16384x256_S16384x256) (constant S128x256 .f32 0x00000000#32) (ix2 p q)
      = Gcn.mm (x0 : A2 128 16384) (x1 : A2 16384 256) (ix2 p q) := by
  refine (PlainDot.matmul_zero_apply (d := dot_S128x16384_S16384x256_S128x256_1_0_0_1_n_n) ⟨rfl, rfl, rfl, rfl, rfl, rfl⟩ none _ _ p q).trans ?_
  rw [shapeCast_self]
  rfl

/-- The bias row broadcast down the block reads row 0 of the bias. -/
theorem pay_bias (x2 : FVec Ideal S1x256 .f32) (p : Fin 128) (q : Fin 256) :
    broadcastTo S128x256 (shapeCast S1x256 x2 shapeCasts_S1x256_S1x256) broadcasts_S1x256_S128x256 (ix2 p q)
      = (x2 : A2 1 256) (ix2 0 q) := by
  rw [shapeCast_self]
  refine broadcastTo_apply _ _ (ix2 p q) (ix2 0 q) fun a => ?_
  match a with
  | ⟨0, _⟩ => rfl
  | ⟨1, _⟩ => rfl

/-- The hidden layer's payload is the layer function of the three blocks. -/
theorem pay_layer (x0 : FVec Ideal S128x16384 .f32) (x1 : FVec Ideal S16384x256 .bf16) (x2 : FVec Ideal S1x256 .f32) :
    (k1_pay2 (F := Ideal) x0 x1 x2 : A2 128 256) = Gcn.layer (x0 : A2 128 16384) (x1 : A2 16384 256) (x2 : A2 1 256) := by
  funext j
  obtain ⟨p, q, rfl⟩ : ∃ (p : Fin 128) (q : Fin 256), j = ix2 p q := ⟨j 0, j 1, eq_ix2 j⟩
  rw [Gcn.layer_apply]
  unfold k1_pay2
  show max (matmul dot_S128x16384_S16384x256_S128x256_1_0_0_1_n_n none (k1_pay1 (F := Ideal) x0)
        (shapeCast S16384x256 x1 shapeCasts_S16384x256_S16384x256) (constant S128x256 .f32 0x00000000#32) (ix2 p q)
      + broadcastTo S128x256 (shapeCast S1x256 x2 shapeCasts_S1x256_S1x256) broadcasts_S1x256_S128x256 (ix2 p q)) Gcn.zeroE = _
  rw [pay_prod1, pay_bias]

/-- The third output's payload is the hidden layer's product with the next weight. -/
theorem pay_next (x0 : FVec Ideal S128x16384 .f32) (x1 : FVec Ideal S16384x256 .bf16) (x2 : FVec Ideal S1x256 .f32)
    (x3 : FVec Ideal S256x256 .bf16) :
    (k1_pay3 (F := Ideal) x0 x1 x2 x3 : A2 128 256)
      = Gcn.mm (Gcn.layer (x0 : A2 128 16384) (x1 : A2 16384 256) (x2 : A2 1 256)) (x3 : A2 256 256) := by
  funext j
  obtain ⟨p, q, rfl⟩ : ∃ (p : Fin 128) (q : Fin 256), j = ix2 p q := ⟨j 0, j 1, eq_ix2 j⟩
  rw [Gcn.mm_apply, ← pay_layer]
  unfold k1_pay3
  show matmul dot_S128x256_S256x256_S128x256_1_0_0_1_n_n none (truncf .bf16 (k1_pay2 (F := Ideal) x0 x1 x2) bitsLt_bf16_f32)
        (shapeCast S256x256 x3 shapeCasts_S256x256_S256x256) (constant S128x256 .f32 0x00000000#32) (ix2 p q) = _
  refine (PlainDot.matmul_zero_apply (d := dot_S128x256_S256x256_S128x256_1_0_0_1_n_n) ⟨rfl, rfl, rfl, rfl, rfl, rfl⟩ none _ _ p q).trans ?_
  rw [shapeCast_self]
  rfl

/-! ## The staging buffers after the body -/

/-- The zero offsets of a whole-buffer access, as the constant function. -/
theorem hz : (![0, 0] : Fin 2 → Nat) = fun _ => 0 := funext fun a => by fin_cases a <;> rfl

/-- Window 4's buffer after the body is the layer function of the loaded blocks. -/
theorem out4_eq (x0 : Vec Ideal S128x16384 .f32) (x1 : Vec Ideal S16384x256 .bf16) (x2 : Vec Ideal S1x256 .f32)
    (x3 : Vec Ideal S256x256 .bf16) :
    (out1_4 (F := Ideal) x0 x1 x2 x3 : A2 128 256) = Gcn.layer (x0 : A2 128 16384) (x1 : A2 16384 256) (x2 : A2 1 256) := by
  unfold out1_4
  rw [View.canon_unit_zero hz]
  simp only [View.ld_unit_zero (S := S128x16384) hz, View.ld_unit_zero (S := S16384x256) hz, View.ld_unit_zero (S := S1x256) hz]
  exact pay_layer x0 x1 x2

/-- Window 5's buffer after the body is the adjacency block. -/
theorem out5_eq (x0 : Vec Ideal S128x16384 .f32) (x1 : Vec Ideal S16384x256 .bf16) (x2 : Vec Ideal S1x256 .f32)
    (x3 : Vec Ideal S256x256 .bf16) :
    (out1_5 (F := Ideal) x0 x1 x2 x3 : A2 128 16384) = (x0 : A2 128 16384) := by
  unfold out1_5
  rw [View.canon_unit_zero hz]
  simp only [View.ld_unit_zero (S := S128x16384) hz]
  exact pay_copy x0

/-- Window 6's buffer after the body is the layer's product with the next weight. -/
theorem out6_eq (x0 : Vec Ideal S128x16384 .f32) (x1 : Vec Ideal S16384x256 .bf16) (x2 : Vec Ideal S1x256 .f32)
    (x3 : Vec Ideal S256x256 .bf16) :
    (out1_6 (F := Ideal) x0 x1 x2 x3 : A2 128 256)
      = Gcn.mm (Gcn.layer (x0 : A2 128 16384) (x1 : A2 16384 256) (x2 : A2 1 256)) (x3 : A2 256 256) := by
  unfold out1_6
  rw [View.canon_unit_zero hz]
  simp only [View.ld_unit_zero (S := S128x16384) hz, View.ld_unit_zero (S := S16384x256) hz, View.ld_unit_zero (S := S1x256) hz,
    View.ld_unit_zero (S := S256x256) hz]
  exact pay_next x0 x1 x2 x3

/-! ## The windows' block indices over the grid -/

/-- The windows' index maps, decided once over the 128 points: the adjacency window and the three output windows
    sit at block (t, 0); the support, bias and weight windows stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The grid has 128 points. -/
theorem grid_N : cfg1.N = 128 := by decide

/-- A point's 128 rows end inside the 16384 rows of the arrays. -/
theorem rows_le (t : Fin cfg1.N) : t.val * 128 + 128 ≤ 16384 := by
  have := lt_of_lt_of_eq t.isLt grid_N
  omega

/-! ## The windows' blocks as row blocks of their arrays -/

/-- The adjacency window's block at point t is rows 128·t … 128·t + 127 of its array. -/
theorem read_blk0 (t : Fin cfg1.N) (X : A2 16384 16384) :
    (((cfg1.win 0).blk t).view.read (Elt Ideal) X : A2 128 16384) = Gcn.rowBlock 128 t.val (rows_le t) X := by
  obtain ⟨e0, e1, -⟩ := idx_facts t
  funext y
  obtain ⟨p, q, rfl⟩ : ∃ (p : Fin 128) (q : Fin 16384), y = ix2 p q := ⟨y 0, y 1, eq_ix2 y⟩
  rw [Gcn.rowBlock_apply]
  show X (((cfg1.win 0).blk t).view.emb (ix2 p q)) = _
  refine congrArg X (funext fun a => Fin.ext ?_)
  match a with
  | ⟨0, _⟩ => show win1_0.index t (0 : Fin 2) * 128 + 1 * p.val = t.val * 128 + p.val; rw [e0]; omega
  | ⟨1, _⟩ => show win1_0.index t (1 : Fin 2) * 16384 + 1 * q.val = q.val; rw [e1]; omega

/-- The support window's block is its whole array at every point. -/
theorem read_blk1 (t : Fin cfg1.N) (X : A2 16384 256) :
    (((cfg1.win 1).blk t).view.read (Elt Ideal) X : A2 16384 256) = X := by
  obtain ⟨-, -, e0, e1, -⟩ := idx_facts t
  funext y
  obtain ⟨p, q, rfl⟩ : ∃ (p : Fin 16384) (q : Fin 256), y = ix2 p q := ⟨y 0, y 1, eq_ix2 y⟩
  show X (((cfg1.win 1).blk t).view.emb (ix2 p q)) = _
  refine congrArg X (funext fun a => Fin.ext ?_)
  match a with
  | ⟨0, _⟩ => show win1_1.index t (0 : Fin 2) * 16384 + 1 * p.val = p.val; rw [e0]; omega
  | ⟨1, _⟩ => show win1_1.index t (1 : Fin 2) * 256 + 1 * q.val = q.val; rw [e1]; omega

/-- The bias window's block is its whole one-row array at every point. -/
theorem read_blk2 (t : Fin cfg1.N) (X : A2 1 256) :
    (((cfg1.win 2).blk t).view.read (Elt Ideal) X : A2 1 256) = X := by
  obtain ⟨-, -, -, -, e0, e1, -⟩ := idx_facts t
  funext y
  obtain ⟨p, q, rfl⟩ : ∃ (p : Fin 1) (q : Fin 256), y = ix2 p q := ⟨y 0, y 1, eq_ix2 y⟩
  show X (((cfg1.win 2).blk t).view.emb (ix2 p q)) = _
  refine congrArg X (funext fun a => Fin.ext ?_)
  match a with
  | ⟨0, _⟩ => show win1_2.index t (0 : Fin 2) * 1 + 1 * p.val = p.val; rw [e0]; omega
  | ⟨1, _⟩ => show win1_2.index t (1 : Fin 2) * 256 + 1 * q.val = q.val; rw [e1]; omega

/-- The next weight's window's block is its whole array at every point. -/
theorem read_blk3 (t : Fin cfg1.N) (X : A2 256 256) :
    (((cfg1.win 3).blk t).view.read (Elt Ideal) X : A2 256 256) = X := by
  obtain ⟨-, -, -, -, -, -, e0, e1, -⟩ := idx_facts t
  funext y
  obtain ⟨p, q, rfl⟩ : ∃ (p : Fin 256) (q : Fin 256), y = ix2 p q := ⟨y 0, y 1, eq_ix2 y⟩
  show X (((cfg1.win 3).blk t).view.emb (ix2 p q)) = _
  refine congrArg X (funext fun a => Fin.ext ?_)
  match a with
  | ⟨0, _⟩ => show win1_3.index t (0 : Fin 2) * 256 + 1 * p.val = p.val; rw [e0]; omega
  | ⟨1, _⟩ => show win1_3.index t (1 : Fin 2) * 256 + 1 * q.val = q.val; rw [e1]; omega

/-- Output window 4's block at point t is rows 128·t … 128·t + 127 of any contents of its array. -/
theorem read_blk4 (t : Fin cfg1.N) (X : A2 16384 256) :
    (((cfg1.win 4).blk t).view.read (Elt Ideal) X : A2 128 256) = Gcn.rowBlock 128 t.val (rows_le t) X := by
  obtain ⟨-, -, -, -, -, -, -, -, e0, e1, -⟩ := idx_facts t
  funext y
  obtain ⟨p, q, rfl⟩ : ∃ (p : Fin 128) (q : Fin 256), y = ix2 p q := ⟨y 0, y 1, eq_ix2 y⟩
  rw [Gcn.rowBlock_apply]
  show X (((cfg1.win 4).blk t).view.emb (ix2 p q)) = _
  refine congrArg X (funext fun a => Fin.ext ?_)
  match a with
  | ⟨0, _⟩ => show win1_4.index t (0 : Fin 2) * 128 + 1 * p.val = t.val * 128 + p.val; rw [e0]; omega
  | ⟨1, _⟩ => show win1_4.index t (1 : Fin 2) * 256 + 1 * q.val = q.val; rw [e1]; omega

/-- Output window 5's block at point t is rows 128·t … 128·t + 127 of any contents of its array. -/
theorem read_blk5 (t : Fin cfg1.N) (X : A2 16384 16384) :
    (((cfg1.win 5).blk t).view.read (Elt Ideal) X : A2 128 16384) = Gcn.rowBlock 128 t.val (rows_le t) X := by
  obtain ⟨-, -, -, -, -, -, -, -, -, -, e0, e1, -⟩ := idx_facts t
  funext y
  obtain ⟨p, q, rfl⟩ : ∃ (p : Fin 128) (q : Fin 16384), y = ix2 p q := ⟨y 0, y 1, eq_ix2 y⟩
  rw [Gcn.rowBlock_apply]
  show X (((cfg1.win 5).blk t).view.emb (ix2 p q)) = _
  refine congrArg X (funext fun a => Fin.ext ?_)
  match a with
  | ⟨0, _⟩ => show win1_5.index t (0 : Fin 2) * 128 + 1 * p.val = t.val * 128 + p.val; rw [e0]; omega
  | ⟨1, _⟩ => show win1_5.index t (1 : Fin 2) * 16384 + 1 * q.val = q.val; rw [e1]; omega

/-- Output window 6's block at point t is rows 128·t … 128·t + 127 of any contents of its array. -/
theorem read_blk6 (t : Fin cfg1.N) (X : A2 16384 256) :
    (((cfg1.win 6).blk t).view.read (Elt Ideal) X : A2 128 256) = Gcn.rowBlock 128 t.val (rows_le t) X := by
  obtain ⟨-, -, -, -, -, -, -, -, -, -, -, -, e0, e1⟩ := idx_facts t
  funext y
  obtain ⟨p, q, rfl⟩ : ∃ (p : Fin 128) (q : Fin 256), y = ix2 p q := ⟨y 0, y 1, eq_ix2 y⟩
  rw [Gcn.rowBlock_apply]
  show X (((cfg1.win 6).blk t).view.emb (ix2 p q)) = _
  refine congrArg X (funext fun a => Fin.ext ?_)
  match a with
  | ⟨0, _⟩ => show win1_6.index t (0 : Fin 2) * 128 + 1 * p.val = t.val * 128 + p.val; rw [e0]; omega
  | ⟨1, _⟩ => show win1_6.index t (1 : Fin 2) * 256 + 1 * q.val = q.val; rw [e1]; omega

/-! ## The input blocks at the region's entry contents -/

/-- The adjacency block at point t is rows 128·t … 128·t + 127 of the entry adjacency array. -/
theorem iblk_adj (c : Dev nD) (t : Fin cfg1.N) :
    (iblk1 (F := Ideal) V c 0 t : A2 128 16384) = Gcn.rowBlock 128 t.val (rows_le t) (V c main_arg1) :=
  read_blk0 t (V c main_arg1)

/-- The support block is the entry support array. -/
theorem iblk_sup (c : Dev nD) (t : Fin cfg1.N) : (iblk1 (F := Ideal) V c 1 t : A2 16384 256) = V c main_v9 :=
  read_blk1 t (V c main_v9)

/-- The bias block is the entry bias row. -/
theorem iblk_bias (c : Dev nD) (t : Fin cfg1.N) : (iblk1 (F := Ideal) V c 2 t : A2 1 256) = V c main_v10 :=
  read_blk2 t (V c main_v10)

/-- The next weight's block is the entry weight array. -/
theorem iblk_next (c : Dev nD) (t : Fin cfg1.N) : (iblk1 (F := Ideal) V c 3 t : A2 256 256) = V c main_v1 :=
  read_blk3 t (V c main_v1)

/-! ## What each point writes back -/

/-- Point t writes back, to window 4, rows 128·t … 128·t + 127 of the hidden layer of the entry arrays. -/
theorem flushed4_eq (c : Dev nD) (t : Fin cfg1.N) :
    (dat1 (F := Ideal) V c).flushed 4 t
      = ((cfg1.win 4).blk t).view.read (Elt Ideal) (Gcn.layer (V c main_arg1) (V c main_v9) (V c main_v10)) := by
  show (cfg1.win 4).cut (grid1.coords t) ((dat1 (F := Ideal) V c).after 4 t) = _
  rw [after1_4]
  exact (out4_eq (iblk1 V c 0 t) (iblk1 V c 1 t) (iblk1 V c 2 t) (iblk1 V c 3 t)).trans
    (by rw [iblk_adj V c t, iblk_sup V c t, iblk_bias V c t, Gcn.layer_rowBlock]; exact (read_blk4 t _).symm)

/-- Point t writes back, to window 5, rows 128·t … 128·t + 127 of the adjacency array. -/
theorem flushed5_eq (c : Dev nD) (t : Fin cfg1.N) :
    (dat1 (F := Ideal) V c).flushed 5 t = ((cfg1.win 5).blk t).view.read (Elt Ideal) (V c main_arg1 : A2 16384 16384) := by
  show (cfg1.win 5).cut (grid1.coords t) ((dat1 (F := Ideal) V c).after 5 t) = _
  rw [after1_5]
  exact (out5_eq (iblk1 V c 0 t) (iblk1 V c 1 t) (iblk1 V c 2 t) (iblk1 V c 3 t)).trans
    (by rw [iblk_adj V c t]; exact (read_blk5 t _).symm)

/-- Point t writes back, to window 6, rows 128·t … 128·t + 127 of the hidden layer's product with the next weight. -/
theorem flushed6_eq (c : Dev nD) (t : Fin cfg1.N) :
    (dat1 (F := Ideal) V c).flushed 6 t
      = ((cfg1.win 6).blk t).view.read (Elt Ideal)
          (Gcn.mm (Gcn.layer (V c main_arg1) (V c main_v9) (V c main_v10)) (V c main_v1)) := by
  show (cfg1.win 6).cut (grid1.coords t) ((dat1 (F := Ideal) V c).after 6 t) = _
  rw [after1_6]
  exact (out6_eq (iblk1 V c 0 t) (iblk1 V c 1 t) (iblk1 V c 2 t) (iblk1 V c 3 t)).trans
    (by rw [iblk_adj V c t, iblk_sup V c t, iblk_bias V c t, iblk_next V c t, Gcn.layer_rowBlock, Gcn.mm_rowBlock]
        exact (read_blk6 t _).symm)

/-! ## The output blocks tile their arrays -/

/-- Row r lies in the 128-row block number r / 128. -/
theorem row_in_block (r : Nat) : r / 128 * 128 ≤ r ∧ r < r / 128 * 128 + 128 := by omega

/-- A block at index 0 as wide as the array holds every column. -/
theorem col_in_block (r n : Nat) (h : r < n) : 0 * n ≤ r ∧ r < 0 * n + n := by omega

/-- The point whose block holds row r of a 16384-row array. -/
theorem point_of_row (r : Nat) (hr : r < 16384) : ∃ t : Fin cfg1.N, t.val = r / 128 :=
  ⟨⟨r / 128, by rw [grid_N]; omega⟩, rfl⟩

/-- An index is in point t's block of window 4 iff each coordinate is in the block's range on its axis. -/
theorem mem_blk4 (t : Fin cfg1.N) (i : S16384x256.Idx) :
    i ∈ ((cfg1.win 4).blk t).view.set ↔ ∀ a : Fin 2, win1_4.index t a * S128x256.size a ≤ (i a).val
      ∧ (i a).val < win1_4.index t a * S128x256.size a + S128x256.size a := by
  show i ∈ ((View.whole main_v11_0).slice (win1_4.rect t)).set ↔ _
  rw [View.set_slice_whole, Rect.mem_set_unit]
  exact Iff.rfl

/-- The same for window 5. -/
theorem mem_blk5 (t : Fin cfg1.N) (i : S16384x16384.Idx) :
    i ∈ ((cfg1.win 5).blk t).view.set ↔ ∀ a : Fin 2, win1_5.index t a * S128x16384.size a ≤ (i a).val
      ∧ (i a).val < win1_5.index t a * S128x16384.size a + S128x16384.size a := by
  show i ∈ ((View.whole main_v11_1).slice (win1_5.rect t)).set ↔ _
  rw [View.set_slice_whole, Rect.mem_set_unit]
  exact Iff.rfl

/-- The same for window 6. -/
theorem mem_blk6 (t : Fin cfg1.N) (i : S16384x256.Idx) :
    i ∈ ((cfg1.win 6).blk t).view.set ↔ ∀ a : Fin 2, win1_6.index t a * S128x256.size a ≤ (i a).val
      ∧ (i a).val < win1_6.index t a * S128x256.size a + S128x256.size a := by
  show i ∈ ((View.whole main_v11_2).slice (win1_6.rect t)).set ↔ _
  rw [View.set_slice_whole, Rect.mem_set_unit]
  exact Iff.rfl

/-- Every index of window 4's array is in the block of the point that holds its row. -/
theorem cover4 (i : S16384x256.Idx) :
    ∃ t : Fin cfg1.N, (cfg1.win 4).flush t = true ∧ i ∈ ((cfg1.win 4).blk t).view.set := by
  have hi0 : (i 0).val < 16384 := (i 0).isLt
  have hi1 : (i 1).val < 256 := (i 1).isLt
  obtain ⟨t, ht⟩ := point_of_row (i 0).val hi0
  obtain ⟨-, -, -, -, -, -, -, -, e0, e1, -⟩ := idx_facts t
  have hr := row_in_block (i 0).val
  refine ⟨t, flush1_4 t, ?_⟩
  rw [mem_blk4]
  intro a
  match a with
  | ⟨0, _⟩ =>
    show win1_4.index t (0 : Fin 2) * 128 ≤ (i 0).val ∧ (i 0).val < win1_4.index t (0 : Fin 2) * 128 + 128
    rw [e0, ht]; exact hr
  | ⟨1, _⟩ =>
    show win1_4.index t (1 : Fin 2) * 256 ≤ (i 1).val ∧ (i 1).val < win1_4.index t (1 : Fin 2) * 256 + 256
    rw [e1]; exact col_in_block _ _ hi1

/-- Every index of window 5's array is in the block of the point that holds its row. -/
theorem cover5 (i : S16384x16384.Idx) :
    ∃ t : Fin cfg1.N, (cfg1.win 5).flush t = true ∧ i ∈ ((cfg1.win 5).blk t).view.set := by
  have hi0 : (i 0).val < 16384 := (i 0).isLt
  have hi1 : (i 1).val < 16384 := (i 1).isLt
  obtain ⟨t, ht⟩ := point_of_row (i 0).val hi0
  obtain ⟨-, -, -, -, -, -, -, -, -, -, e0, e1, -⟩ := idx_facts t
  have hr := row_in_block (i 0).val
  refine ⟨t, flush1_5 t, ?_⟩
  rw [mem_blk5]
  intro a
  match a with
  | ⟨0, _⟩ =>
    show win1_5.index t (0 : Fin 2) * 128 ≤ (i 0).val ∧ (i 0).val < win1_5.index t (0 : Fin 2) * 128 + 128
    rw [e0, ht]; exact hr
  | ⟨1, _⟩ =>
    show win1_5.index t (1 : Fin 2) * 16384 ≤ (i 1).val ∧ (i 1).val < win1_5.index t (1 : Fin 2) * 16384 + 16384
    rw [e1]; exact col_in_block _ _ hi1

/-- Every index of window 6's array is in the block of the point that holds its row. -/
theorem cover6 (i : S16384x256.Idx) :
    ∃ t : Fin cfg1.N, (cfg1.win 6).flush t = true ∧ i ∈ ((cfg1.win 6).blk t).view.set := by
  have hi0 : (i 0).val < 16384 := (i 0).isLt
  have hi1 : (i 1).val < 256 := (i 1).isLt
  obtain ⟨t, ht⟩ := point_of_row (i 0).val hi0
  obtain ⟨-, -, -, -, -, -, -, -, -, -, -, -, e0, e1⟩ := idx_facts t
  have hr := row_in_block (i 0).val
  refine ⟨t, flush1_6 t, ?_⟩
  rw [mem_blk6]
  intro a
  match a with
  | ⟨0, _⟩ =>
    show win1_6.index t (0 : Fin 2) * 128 ≤ (i 0).val ∧ (i 0).val < win1_6.index t (0 : Fin 2) * 128 + 128
    rw [e0, ht]; exact hr
  | ⟨1, _⟩ =>
    show win1_6.index t (1 : Fin 2) * 256 ≤ (i 1).val ∧ (i 1).val < win1_6.index t (1 : Fin 2) * 256 + 256
    rw [e1]; exact col_in_block _ _ hi1

/-! ## The three arrays after the region -/

/-- After the region, window 4's array is the hidden layer of window 0's (adjacency), window 1's (support) and window 2's (bias row) arrays. -/
theorem value_4 (c : Dev nD) :
    (dat1 (F := Ideal) V c).arrAt 4 cfg1.N = Gcn.layer (V c main_arg1) (V c main_v9) (V c main_v10) :=
  (dat1 (F := Ideal) V c).arrAt_eq_of_cover 4 (Gcn.layer (V c main_arg1) (V c main_v9) (V c main_v10))
    (fun t _ => flushed4_eq V c t) cover4

/-- After the region, window 5's array is window 0's array (the adjacency, entry for entry). -/
theorem value_5 (c : Dev nD) :
    (dat1 (F := Ideal) V c).arrAt 5 cfg1.N = V c main_arg1 :=
  (dat1 (F := Ideal) V c).arrAt_eq_of_cover 5 (V c main_arg1 : A2 16384 16384) (fun t _ => flushed5_eq V c t) cover5

/-- After the region, window 6's array is the hidden layer's matrix product with window 3's array (the next weight). -/
theorem value_6 (c : Dev nD) :
    (dat1 (F := Ideal) V c).arrAt 6 cfg1.N
      = Gcn.mm (Gcn.layer (V c main_arg1) (V c main_v9) (V c main_v10)) (V c main_v1) :=
  (dat1 (F := Ideal) V c).arrAt_eq_of_cover 6
    (Gcn.mm (Gcn.layer (V c main_arg1) (V c main_v9) (V c main_v10)) (V c main_v1)) (fun t _ => flushed6_eq V c t) cover6

end Gcn.Region1

end
-- ==== Proof.Region2.lean ====
/-
  The third pallas_call, read as whole-array functions.

  Its grid has 64 points; point t takes rows 256·t … 256·t + 255 of the adjacency copy (window 0, block [256, 16384]),
  the whole support array (window 1, [16384, 256]), the bias row (window 2, [1, 256]) and the next weight (window 3,
  [256, 128]); it writes the same rows of two arrays: the hidden layer max (adj · s + b) 0 (window 4, block
  [256, 256]) and its product with the next weight (window 5, block [256, 128]).  Both are row-local in the adjacency
  operand, so the 64 blocks are the row blocks of whole-array functions and tile their arrays.
-/
import proofs.«162995_j33741263077612_2_alg».proof.Proof.Gen.KernelIdeal.Frame
import proofs.«162995_j33741263077612_2_alg».proof.Proof.Spec
import proofs.«162995_j33741263077612_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Gcn.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

-- The TensorCore's buffer contents when the region is entered: every statement below holds at any such contents.
variable (V : (c : Dev nD) → (b : Ref sig .tc) → Buf (Elt Ideal) ((c : Thread nD τ).loc b))

/-! ## The body's arithmetic on one point's blocks -/

/-- Both products of the body contract the left operand's columns with the right operand's rows, with no batch axis. -/
theorem plain_adj_support : PlainDot.IsPlain dot_S256x16384_S16384x256_S256x256_1_0_0_1_n_n := ⟨rfl, rfl, rfl, rfl, rfl, rfl⟩
theorem plain_hidden_weight : PlainDot.IsPlain dot_S256x256_S256x128_S256x128_1_0_0_1_n_n := ⟨rfl, rfl, rfl, rfl, rfl, rfl⟩

/-- The first stored value, entry (p, q): the sum over i of x0 (p, i) · x1 (i, q), plus the bias row's entry q, capped
    below by zero.  The casts to the same shape are identities, the [1, 256] → [256, 256] broadcast reads row 0, and the
    sum, the addition and the maximum read entry by entry.  This is the hidden layer of the three blocks. -/
theorem pay_hidden (x0 : FVec Ideal S256x16384 .bf16) (x1 : FVec Ideal S16384x256 .bf16) (x2 : FVec Ideal S1x256 .f32) :
    k2_pay1 (F := Ideal) x0 x1 x2 = Gcn.layer x0 x1 x2 := by
  funext j
  obtain ⟨p, q, rfl⟩ : ∃ (p : Fin 256) (q : Fin 256), j = ix2 p q := ⟨j 0, j 1, eq_ix2 j⟩
  unfold k2_pay1
  rw [Gcn.layer_apply, Gcn.mm_apply, shapeCast_self, shapeCast_self, shapeCast_self, maximumf_apply, addf_apply,
    PlainDot.matmul_zero_apply plain_adj_support, broadcastTo_1b_ab_apply]
  rfl

/-- The second stored value, entry (p, q): the sum over i of (the first stored value) (p, i) · x3 (i, q); over the
    extended reals the two roundings to the narrower format are identities. -/
theorem pay_product (x0 : FVec Ideal S256x16384 .bf16) (x1 : FVec Ideal S16384x256 .bf16) (x2 : FVec Ideal S1x256 .f32)
    (x3 : FVec Ideal S256x128 .bf16) :
    k2_pay2 (F := Ideal) x0 x1 x2 x3 = Gcn.mm (Gcn.layer x0 x1 x2) x3 := by
  funext j
  obtain ⟨p, q, rfl⟩ : ∃ (p : Fin 256) (q : Fin 128), j = ix2 p q := ⟨j 0, j 1, eq_ix2 j⟩
  unfold k2_pay2
  rw [Gcn.mm_apply, shapeCast_self, truncf_apply, PlainDot.matmul_zero_apply plain_hidden_weight]
  refine Finset.sum_congr rfl fun i _ => ?_
  rw [truncf_apply, pay_hidden]

/-- The offsets (0, 0) of every load and store of the body. -/
theorem zero_offsets : (![0, 0] : Fin 2 → Nat) = fun _ => 0 := funext fun a => by fin_cases a <;> rfl

/-- The body loads each input buffer whole and stores each output buffer whole, once: window 4's buffer ends holding
    the hidden layer of the three input blocks, -/
theorem out_hidden (x0 : FVec Ideal S256x16384 .bf16) (x1 : FVec Ideal S16384x256 .bf16) (x2 : FVec Ideal S1x256 .f32)
    (x3 : FVec Ideal S256x128 .bf16) : out2_4 (F := Ideal) x0 x1 x2 x3 = Gcn.layer x0 x1 x2 := by
  unfold out2_4
  rw [View.canon_unit_zero zero_offsets]
  simp only [View.ld_unit_zero (S := S256x16384) zero_offsets, View.ld_unit_zero (S := S16384x256) zero_offsets,
    View.ld_unit_zero (S := S1x256) zero_offsets]
  exact pay_hidden x0 x1 x2

/-- and window 5's buffer its product with the fourth block. -/
theorem out_product (x0 : FVec Ideal S256x16384 .bf16) (x1 : FVec Ideal S16384x256 .bf16) (x2 : FVec Ideal S1x256 .f32)
    (x3 : FVec Ideal S256x128 .bf16) : out2_5 (F := Ideal) x0 x1 x2 x3 = Gcn.mm (Gcn.layer x0 x1 x2) x3 := by
  unfold out2_5
  rw [View.canon_unit_zero zero_offsets]
  simp only [View.ld_unit_zero (S := S256x16384) zero_offsets, View.ld_unit_zero (S := S16384x256) zero_offsets,
    View.ld_unit_zero (S := S1x256) zero_offsets, View.ld_unit_zero (S := S256x128) zero_offsets]
  exact pay_product x0 x1 x2 x3

/-! ## Which block each window holds at a point -/

/-- The six index maps at each of the 64 points: windows 0, 4 and 5 are at block (t, 0); windows 1, 2 and 3 stay at
    block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Point t's 256 rows end inside the 16384 rows of the arrays: t ≤ 63. -/
theorem rows_le (t : Fin cfg2.N) : t.val * 256 + 256 ≤ 16384 := by
  have h := t.isLt
  have hN : cfg2.N = 64 := N_2
  omega

/-- Window 0's block at point t is rows 256·t … 256·t + 255 of the adjacency copy: entry (y₀, y₁) of the block sits
    at (t · 256 + y₀, 0 · 16384 + y₁) of the array. -/
theorem blk_adj (c : Dev nD) (t : Fin cfg2.N) :
    iblk2 (F := Ideal) V c 0 t = Gcn.rowBlock 256 t.val (rows_le t) (V c main_v11_1) := by
  obtain ⟨e0, e1, -⟩ := idx_facts t
  funext y
  show V c main_v11_1 (((cfg2.win 0).blk t).view.emb y) = V c main_v11_1 (ix2 ⟨t.val * 256 + (y 0).val, _⟩ (y 1))
  refine congrArg (V c main_v11_1) (funext fun a => Fin.ext ?_)
  match a with
  | ⟨0, _⟩ => show win2_0.index t (0 : Fin 2) * 256 + 1 * (y 0).val = t.val * 256 + (y 0).val; omega
  | ⟨1, _⟩ => show win2_0.index t (1 : Fin 2) * 16384 + 1 * (y 1).val = (y 1).val; omega

/-- Window 1's block at every point is the whole support array: block (0, 0) of blocks as large as the array. -/
theorem blk_support (c : Dev nD) (t : Fin cfg2.N) : iblk2 (F := Ideal) V c 1 t = V c main_v11_2 := by
  obtain ⟨-, -, e0, e1, -⟩ := idx_facts t
  funext y
  show V c main_v11_2 (((cfg2.win 1).blk t).view.emb y) = V c main_v11_2 y
  refine congrArg (V c main_v11_2) (funext fun a => Fin.ext ?_)
  match a with
  | ⟨0, _⟩ => show win2_1.index t (0 : Fin 2) * 16384 + 1 * (y 0).val = (y 0).val; omega
  | ⟨1, _⟩ => show win2_1.index t (1 : Fin 2) * 256 + 1 * (y 1).val = (y 1).val; omega

/-- Window 2's block at every point is the whole bias row. -/
theorem blk_bias (c : Dev nD) (t : Fin cfg2.N) : iblk2 (F := Ideal) V c 2 t = V c main_v12 := by
  obtain ⟨-, -, -, -, e0, e1, -⟩ := idx_facts t
  funext y
  show V c main_v12 (((cfg2.win 2).blk t).view.emb y) = V c main_v12 y
  refine congrArg (V c main_v12) (funext fun a => Fin.ext ?_)
  match a with
  | ⟨0, _⟩ => show win2_2.index t (0 : Fin 2) * 1 + 1 * (y 0).val = (y 0).val; omega
  | ⟨1, _⟩ => show win2_2.index t (1 : Fin 2) * 256 + 1 * (y 1).val = (y 1).val; omega

/-- Window 3's block at every point is the whole next weight. -/
theorem blk_weight (c : Dev nD) (t : Fin cfg2.N) : iblk2 (F := Ideal) V c 3 t = V c main_v2 := by
  obtain ⟨-, -, -, -, -, -, e0, e1, -⟩ := idx_facts t
  funext y
  show V c main_v2 (((cfg2.win 3).blk t).view.emb y) = V c main_v2 y
  refine congrArg (V c main_v2) (funext fun a => Fin.ext ?_)
  match a with
  | ⟨0, _⟩ => show win2_3.index t (0 : Fin 2) * 256 + 1 * (y 0).val = (y 0).val; omega
  | ⟨1, _⟩ => show win2_3.index t (1 : Fin 2) * 128 + 1 * (y 1).val = (y 1).val; omega

/-- Output window 4's block at point t, read off any [16384, 256] array G, is rows 256·t … 256·t + 255 of G. -/
theorem read_hidden (t : Fin cfg2.N) (G : Gcn.A2 16384 256) :
    ((cfg2.win 4).blk t).view.read (Elt Ideal) G = Gcn.rowBlock 256 t.val (rows_le t) G := by
  obtain ⟨-, -, -, -, -, -, -, -, e0, e1, -⟩ := idx_facts t
  funext y
  show G (((cfg2.win 4).blk t).view.emb y) = G (ix2 ⟨t.val * 256 + (y 0).val, _⟩ (y 1))
  refine congrArg G (funext fun a => Fin.ext ?_)
  match a with
  | ⟨0, _⟩ => show win2_4.index t (0 : Fin 2) * 256 + 1 * (y 0).val = t.val * 256 + (y 0).val; omega
  | ⟨1, _⟩ => show win2_4.index t (1 : Fin 2) * 256 + 1 * (y 1).val = (y 1).val; omega

/-- Output window 5's block at point t, read off any [16384, 128] array G, is rows 256·t … 256·t + 255 of G. -/
theorem read_product (t : Fin cfg2.N) (G : Gcn.A2 16384 128) :
    ((cfg2.win 5).blk t).view.read (Elt Ideal) G = Gcn.rowBlock 256 t.val (rows_le t) G := by
  obtain ⟨-, -, -, -, -, -, -, -, -, -, e0, e1⟩ := idx_facts t
  funext y
  show G (((cfg2.win 5).blk t).view.emb y) = G (ix2 ⟨t.val * 256 + (y 0).val, _⟩ (y 1))
  refine congrArg G (funext fun a => Fin.ext ?_)
  match a with
  | ⟨0, _⟩ => show win2_5.index t (0 : Fin 2) * 256 + 1 * (y 0).val = t.val * 256 + (y 0).val; omega
  | ⟨1, _⟩ => show win2_5.index t (1 : Fin 2) * 128 + 1 * (y 1).val = (y 1).val; omega

/-! ## What a point writes back -/

/-- The output windows' blocks lie inside their arrays, so a write-back moves the whole staging buffer. -/
theorem cut_hidden (t : Fin cfg2.N) (X : Gcn.A2 256 256) : (cfg2.win 4).cut (grid2.coords t) X = X := rfl
theorem cut_product (t : Fin cfg2.N) (X : Gcn.A2 256 128) : (cfg2.win 5).cut (grid2.coords t) X = X := rfl

/-- Point t writes back to window 4's array block t of the hidden layer of the WHOLE arrays: the hidden layer of a row
    block of the adjacency is the same row block of the hidden layer. -/
theorem flushed_hidden (c : Dev nD) (t : Fin cfg2.N) :
    (dat2 (F := Ideal) V c).flushed 4 t
      = ((cfg2.win 4).blk t).view.read (Elt Ideal) (Gcn.layer (V c main_v11_1) (V c main_v11_2) (V c main_v12)) := by
  show (cfg2.win 4).cut (grid2.coords t) ((dat2 (F := Ideal) V c).after 4 t) = _
  rw [after2_4, out_hidden, blk_adj, blk_support, blk_bias, read_hidden t, Gcn.layer_rowBlock]
  exact cut_hidden t _

/-- Point t writes back to window 5's array block t of the hidden layer's product with the next weight: a product's
    row block is the product of the left operand's row block. -/
theorem flushed_product (c : Dev nD) (t : Fin cfg2.N) :
    (dat2 (F := Ideal) V c).flushed 5 t
      = ((cfg2.win 5).blk t).view.read (Elt Ideal)
          (Gcn.mm (Gcn.layer (V c main_v11_1) (V c main_v11_2) (V c main_v12)) (V c main_v2)) := by
  show (cfg2.win 5).cut (grid2.coords t) ((dat2 (F := Ideal) V c).after 5 t) = _
  rw [after2_5, out_product, blk_adj, blk_support, blk_bias, blk_weight, read_product t, Gcn.layer_rowBlock,
    Gcn.mm_rowBlock]
  exact cut_product t _

/-! ## The 64 blocks tile each output array -/

/-- An index of window 4's array is in point t's block iff each coordinate is in the block's range on its axis. -/
theorem mem_blk_hidden (t : Fin cfg2.N) (i : S16384x256.Idx) :
    i ∈ ((cfg2.win 4).blk t).view.set ↔ ∀ a : Fin 2, win2_4.index t a * S256x256.size a ≤ (i a).val
      ∧ (i a).val < win2_4.index t a * S256x256.size a + S256x256.size a := by
  show i ∈ ((View.whole main_v13_0).slice (win2_4.rect t)).set ↔ _
  rw [View.set_slice_whole, Rect.mem_set_unit]
  exact Iff.rfl

/-- The same for window 5's array. -/
theorem mem_blk_product (t : Fin cfg2.N) (i : S16384x128.Idx) :
    i ∈ ((cfg2.win 5).blk t).view.set ↔ ∀ a : Fin 2, win2_5.index t a * S256x128.size a ≤ (i a).val
      ∧ (i a).val < win2_5.index t a * S256x128.size a + S256x128.size a := by
  show i ∈ ((View.whole main_v13_1).slice (win2_5.rect t)).set ↔ _
  rw [View.set_slice_whole, Rect.mem_set_unit]
  exact Iff.rfl

/-- Row r of a 16384-row array belongs to point r / 256, one of the 64. -/
theorem point_of_row (r : Nat) (hr : r < 16384) : ∃ t : Fin cfg2.N, t.val = r / 256 := by
  have hN : cfg2.N = 64 := N_2
  exact ⟨⟨r / 256, by omega⟩, rfl⟩

/-- Every index of window 4's array is in the block of its row's point, which writes back:
    256 · (r / 256) ≤ r < 256 · (r / 256) + 256, and the one column block holds every column. -/
theorem cover_hidden (i : S16384x256.Idx) :
    ∃ t : Fin cfg2.N, (cfg2.win 4).flush t = true ∧ i ∈ ((cfg2.win 4).blk t).view.set := by
  have hi0 : (i 0).val < 16384 := (i 0).isLt
  have hi1 : (i 1).val < 256 := (i 1).isLt
  obtain ⟨t, ht⟩ := point_of_row (i 0).val hi0
  obtain ⟨-, -, -, -, -, -, -, -, e0, e1, -⟩ := idx_facts t
  refine ⟨t, flush2_4 t, ?_⟩
  rw [mem_blk_hidden]
  intro a
  match a with
  | ⟨0, _⟩ => show win2_4.index t (0 : Fin 2) * 256 ≤ (i 0).val ∧ (i 0).val < win2_4.index t (0 : Fin 2) * 256 + 256; omega
  | ⟨1, _⟩ => show win2_4.index t (1 : Fin 2) * 256 ≤ (i 1).val ∧ (i 1).val < win2_4.index t (1 : Fin 2) * 256 + 256; omega

/-- The same for window 5's array. -/
theorem cover_product (i : S16384x128.Idx) :
    ∃ t : Fin cfg2.N, (cfg2.win 5).flush t = true ∧ i ∈ ((cfg2.win 5).blk t).view.set := by
  have hi0 : (i 0).val < 16384 := (i 0).isLt
  have hi1 : (i 1).val < 128 := (i 1).isLt
  obtain ⟨t, ht⟩ := point_of_row (i 0).val hi0
  obtain ⟨-, -, -, -, -, -, -, -, -, -, e0, e1⟩ := idx_facts t
  refine ⟨t, flush2_5 t, ?_⟩
  rw [mem_blk_product]
  intro a
  match a with
  | ⟨0, _⟩ => show win2_5.index t (0 : Fin 2) * 256 ≤ (i 0).val ∧ (i 0).val < win2_5.index t (0 : Fin 2) * 256 + 256; omega
  | ⟨1, _⟩ => show win2_5.index t (1 : Fin 2) * 128 ≤ (i 1).val ∧ (i 1).val < win2_5.index t (1 : Fin 2) * 128 + 128; omega

/-! ## The arrays after the region -/

/-- After the region, window 4's array is the hidden layer of window 0's (adjacency), window 1's (support) and window 2's (bias row) arrays. -/
theorem value_4 (c : Dev nD) :
    (dat2 (F := Ideal) V c).arrAt 4 cfg2.N = Gcn.layer (V c main_v11_1) (V c main_v11_2) (V c main_v12) :=
  (dat2 (F := Ideal) V c).arrAt_eq_of_cover 4 (Gcn.layer (V c main_v11_1) (V c main_v11_2) (V c main_v12))
    (fun t _ => flushed_hidden V c t) cover_hidden

/-- After the region, window 5's array is the hidden layer's matrix product with window 3's array (the next weight). -/
theorem value_5 (c : Dev nD) :
    (dat2 (F := Ideal) V c).arrAt 5 cfg2.N
      = Gcn.mm (Gcn.layer (V c main_v11_1) (V c main_v11_2) (V c main_v12)) (V c main_v2) :=
  (dat2 (F := Ideal) V c).arrAt_eq_of_cover 5
    (Gcn.mm (Gcn.layer (V c main_v11_1) (V c main_v11_2) (V c main_v12)) (V c main_v2))
    (fun t _ => flushed_product V c t) cover_product

end Gcn.Region2

end
-- ==== Proof.LibKeepdims.lean ====
/-
  The two layout steps of a row reduction that keeps its dimension, read at an index.

  A reduction of an [a, b] array along its rows gives an [a] array; kept as a column it is cast to [a, 1] and then
  broadcast back to [a, b].  At entry (p, q) of the broadcast one reads the column's entry (p, 0), and there the cast
  reads the vector's entry p: every entry of row p sees the row's own reduced value.  Stated for any element type and
  any extents.
-/
import Idealize.ShloMosaic.Lib.Pipeline.Value
import Idealize.ShloMosaic.Lib.ValueIdx

noncomputable section

namespace KeepdimsLayout

open Idealize.ShloMosaic Idealize.ShloMosaic.ValueIdx

/-- An [a] array cast to [a, 1] reads, at (p, u), the operand at p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end KeepdimsLayout

end
-- ==== Proof.Region3.lean ====
/-
  The fourth pallas_call, read as a whole-array function.

  Its grid has 64 points; point t takes rows 256·t … 256·t + 255 of the adjacency copy (window 0, block [256, 16384]) and
  of the two hidden layers' arrays (windows 3 and 4, blocks [256, 256]), and whole: the support array (window 1,
  [16384, 128]), the bias row (window 2, [1, 128]), the classifier weight's three row slabs (windows 5, 6, 7: [256, 16],
  [256, 16], [128, 16]) and its bias row (window 8, [1, 16]); it writes the same rows of the result (window 9, block
  [256, 16]): the row log-softmax of ((x₁ · w₁ + x₂ · w₂) + (adj · s + b) · w₃) + bias.  Every step is row-local in the
  three row-blocked operands, so the 64 blocks are the row blocks of one whole-array function and tile the result.
-/
import proofs.«162995_j33741263077612_2_alg».proof.Proof.Gen.KernelIdeal.Frame
import proofs.«162995_j33741263077612_2_alg».proof.Proof.Spec
import proofs.«162995_j33741263077612_2_alg».proof.Proof.LibPlainDot
import proofs.«162995_j33741263077612_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Gcn.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen KeepdimsLayout

-- The TensorCore's buffer contents when the region is entered: every statement below holds at any such contents.
variable (V : (c : Dev nD) → (b : Ref sig .tc) → Buf (Elt Ideal) ((c : Thread nD τ).loc b))

/-! ## Layout steps of a kept-dimension row reduction -/

-- The cast of a vector to a column and the column's broadcast along rows are read by the keepdims layout lemmas.

/-- The index a reduction over axis 1 of a [256, 16] array inserts coordinate k into row p's index at is (p, k). -/
theorem lift_row (h : S256x16.Reduces [1] S256) (p : Fin 256) (k : Fin 16) : h.lift (ix1 p) k = ix2 p k :=
  funext fun a => Fin.ext (by
    match a with
    | ⟨0, _⟩ => rfl
    | ⟨1, _⟩ => rfl)

/-- The row maximum from minus infinity's word, read at row p, is the specification's row maximum. -/
theorem rowMax_read (src : FVec Ideal S256x16 .f32) (h : S256x16.Reduces [1] S256) (hφ : FKind.Formats .f32)
    (hacc : (0xFF800000#32 : BitVec 32) = FKind.maximumf.neutral .f32 hφ) (p : Fin 256) :
    multiReduction (F := Ideal) .maximumf [1] S256 src 0xFF800000#32 h hφ hacc (ix1 p) = Gcn.rowMax src p :=
  (Ideal.multiReduction_maximumf_single src _ h hφ hacc (ix1 p)).trans (by
    have e : (src ∘ h.lift (ix1 p)) = fun q : Fin 16 => src (ix2 p q) := funext fun k => congrArg src (lift_row h p k)
    unfold Gcn.rowMax
    exact congrArg (fun f => (Finset.univ : Finset (Fin 16)).fold max Gcn.ninfE f) e)

/-- The row sum, read at row p, is the sum over the row's 16 entries. -/
theorem rowSum_read (src : FVec Ideal S256x16 .f32) (h : S256x16.Reduces [1] S256) (hφ : FKind.Formats .f32)
    (hacc : (0x00000000#32 : BitVec 32) = FKind.add.neutral .f32 hφ) (p : Fin 256) :
    multiReduction (F := Ideal) .add [1] S256 src 0x00000000#32 h hφ hacc (ix1 p) = ∑ q : Fin 16, src (ix2 p q) :=
  (Ideal.multiReduction_add_single src _ h hφ hacc (ix1 p)).trans
    (Finset.sum_congr rfl fun k _ => congrArg src (lift_row h p k))

/-! ## The body's arithmetic, one value at a time, over any blocks -/

/-- The third layer's block: the adjacency row block times the support array, plus the bias row on every row. -/
def convK (x0 : FVec Ideal S256x16384 .bf16) (x1 : FVec Ideal S16384x128 .bf16) (x2 : FVec Ideal S1x128 .f32) :
    FVec Ideal S256x128 .f32 :=
  addf (matmul dot_S256x16384_S16384x128_S256x128_1_0_0_1_n_n none (shapeCast S256x16384 x0 shapeCasts_S256x16384_S256x16384)
      (shapeCast S16384x128 x1 shapeCasts_S16384x128_S16384x128) (constant S256x128 .f32 0x00000000#32))
    (broadcastTo S256x128 (shapeCast S1x128 x2 shapeCasts_S1x128_S1x128) broadcasts_S1x128_S256x128)

theorem convK_eq (x0 : FVec Ideal S256x16384 .bf16) (x1 : FVec Ideal S16384x128 .bf16) (x2 : FVec Ideal S1x128 .f32) :
    convK x0 x1 x2 = Gcn.conv x0 x1 x2 := by
  funext j
  obtain ⟨p, q, rfl⟩ : ∃ (p : Fin 256) (q : Fin 128), j = ix2 p q := ⟨j 0, j 1, eq_ix2 j⟩
  unfold convK
  rw [shapeCast_self, shapeCast_self, shapeCast_self, addf_apply]
  refine congrArg₂ (· + ·) ?_ ?_
  · exact PlainDot.matmul_zero_apply ⟨rfl, rfl, rfl, rfl, rfl, rfl⟩ none x0 x1 p q
  · exact broadcastTo_1b_ab_apply x2 _ p q

/-- The classifier's logits block: the two hidden blocks and the third layer's block, each times its slab of the
    weight, added left to right, plus the bias row on every row. -/
def logitsK (x3 x4 : FVec Ideal S256x256 .f32) (v8 : FVec Ideal S256x128 .f32) (x5 x6 : FVec Ideal S256x16 .bf16)
    (x7 : FVec Ideal S128x16 .bf16) (x8 : FVec Ideal S1x16 .f32) : FVec Ideal S256x16 .f32 :=
  addf (addf (addf
      (matmul dot_S256x256_S256x16_S256x16_1_0_0_1_n_n none
        (truncf .bf16 (shapeCast S256x256 x3 shapeCasts_S256x256_S256x256) bitsLt_bf16_f32)
        (shapeCast S256x16 x5 shapeCasts_S256x16_S256x16) (constant S256x16 .f32 0x00000000#32))
      (matmul dot_S256x256_S256x16_S256x16_1_0_0_1_n_n none
        (truncf .bf16 (shapeCast S256x256 x4 shapeCasts_S256x256_S256x256) bitsLt_bf16_f32)
        (shapeCast S256x16 x6 shapeCasts_S256x16_S256x16) (constant S256x16 .f32 0x00000000#32)))
      (matmul dot_S256x128_S128x16_S256x16_1_0_0_1_n_n none (truncf .bf16 v8 bitsLt_bf16_f32)
        (shapeCast S128x16 x7 shapeCasts_S128x16_S128x16) (constant S256x16 .f32 0x00000000#32)))
    (broadcastTo S256x16 (shapeCast S1x16 x8 shapeCasts_S1x16_S1x16) broadcasts_S1x16_S256x16)

theorem logitsK_eq (x3 x4 : FVec Ideal S256x256 .f32) (v8 : FVec Ideal S256x128 .f32) (x5 x6 : FVec Ideal S256x16 .bf16)
    (x7 : FVec Ideal S128x16 .bf16) (x8 : FVec Ideal S1x16 .f32) :
    logitsK x3 x4 v8 x5 x6 x7 x8 = Gcn.logits3 x3 x4 v8 x5 x6 x7 x8 := by
  funext j
  obtain ⟨p, q, rfl⟩ : ∃ (p : Fin 256) (q : Fin 16), j = ix2 p q := ⟨j 0, j 1, eq_ix2 j⟩
  unfold logitsK
  rw [shapeCast_self, shapeCast_self, shapeCast_self, shapeCast_self, shapeCast_self, shapeCast_self]
  rw [addf_apply, addf_apply, addf_apply]
  refine congrArg₂ (· + ·) (congrArg₂ (· + ·) (congrArg₂ (· + ·) ?_ ?_) ?_) ?_
  · exact PlainDot.matmul_zero_apply ⟨rfl, rfl, rfl, rfl, rfl, rfl⟩ none (truncf .bf16 x3 bitsLt_bf16_f32) x5 p q
  · exact PlainDot.matmul_zero_apply ⟨rfl, rfl, rfl, rfl, rfl, rfl⟩ none (truncf .bf16 x4 bitsLt_bf16_f32) x6 p q
  · exact PlainDot.matmul_zero_apply ⟨rfl, rfl, rfl, rfl, rfl, rfl⟩ none (truncf .bf16 v8 bitsLt_bf16_f32) x7 p q
  · exact broadcastTo_1b_ab_apply x8 _ p q

/-- The logits block shifted by its row maxima. -/
def shiftK (l : FVec Ideal S256x16 .f32) : FVec Ideal S256x16 .f32 :=
  subf l (broadcastTo S256x16 (shapeCast S256x1
      (multiReduction .maximumf [1] S256 l 0xFF800000#32 reduces_S256x16_S256 (.inl rfl) rfl) shapeCasts_S256_S256x1)
    broadcasts_S256x1_S256x16)

theorem shiftK_apply (l : FVec Ideal S256x16 .f32) (p : Fin 256) (q : Fin 16) :
    shiftK l (ix2 p q) = l (ix2 p q) - Gcn.rowMax l p := by
  unfold shiftK
  rw [subf_apply]
  refine congrArg (l (ix2 p q) - ·) ?_
  exact (broadcastTo_a1_ab_apply _ _ p q).trans ((shapeCast_a_a1_apply _ _ p 0).trans (rowMax_read l _ _ _ p))

/-- The last value: the shifted block minus, on every row, the logarithm of the row's sum of the exponentials. -/
theorem pay1_apply (v34 v35 : FVec Ideal S256x16 .f32) (p : Fin 256) (q : Fin 16) :
    k3_pay1 (F := Ideal) v34 v35 (ix2 p q) = v34 (ix2 p q) - Ideal.log (∑ k : Fin 16, v35 (ix2 p k)) := by
  unfold k3_pay1
  dsimp only
  rw [subf_apply]
  refine congrArg (v34 (ix2 p q) - ·) ?_
  refine (broadcastTo_a1_ab_apply _ _ p q).trans ?_
  show Ideal.log (shapeCast S256x1 _ _ (ix2 p (0 : Fin 1))) = _
  refine congrArg Ideal.log ?_
  exact (shapeCast_a_a1_apply _ _ p 0).trans (rowSum_read v35 _ _ _ p)

/-- The shifted logits the body computes are the shift of the logits block of the third layer's block. -/
theorem pay2_eq (x0 : FVec Ideal S256x16384 .bf16) (x1 : FVec Ideal S16384x128 .bf16) (x2 : FVec Ideal S1x128 .f32)
    (x3 x4 : FVec Ideal S256x256 .f32) (x5 x6 : FVec Ideal S256x16 .bf16) (x7 : FVec Ideal S128x16 .bf16)
    (x8 : FVec Ideal S1x16 .f32) :
    k3_pay2 (F := Ideal) x0 x1 x2 x3 x4 x5 x6 x7 x8 = shiftK (logitsK x3 x4 (convK x0 x1 x2) x5 x6 x7 x8) := by
  unfold k3_pay2 shiftK logitsK convK
  rfl

/-- THE PAYLOAD is the row log-softmax of the logits of its blocks. -/
theorem pay_eq (x0 : FVec Ideal S256x16384 .bf16) (x1 : FVec Ideal S16384x128 .bf16) (x2 : FVec Ideal S1x128 .f32)
    (x3 x4 : FVec Ideal S256x256 .f32) (x5 x6 : FVec Ideal S256x16 .bf16) (x7 : FVec Ideal S128x16 .bf16)
    (x8 : FVec Ideal S1x16 .f32) :
    k3_pay1 (F := Ideal) (k3_pay2 x0 x1 x2 x3 x4 x5 x6 x7 x8) (k3_pay3 x0 x1 x2 x3 x4 x5 x6 x7 x8)
      = Gcn.logSoftmax (Gcn.logits3 x3 x4 (Gcn.conv x0 x1 x2) x5 x6 x7 x8) := by
  have e3 : k3_pay3 (F := Ideal) x0 x1 x2 x3 x4 x5 x6 x7 x8 = exp (k3_pay2 x0 x1 x2 x3 x4 x5 x6 x7 x8) := rfl
  rw [e3, pay2_eq, convK_eq, logitsK_eq]
  generalize Gcn.logits3 x3 x4 (Gcn.conv x0 x1 x2) x5 x6 x7 x8 = l
  funext j
  obtain ⟨p, q, rfl⟩ : ∃ (p : Fin 256) (q : Fin 16), j = ix2 p q := ⟨j 0, j 1, eq_ix2 j⟩
  rw [pay1_apply, Gcn.logSoftmax_apply, shiftK_apply]
  refine congrArg ((l (ix2 p q) - Gcn.rowMax l p) - ·) ?_
  unfold Gcn.rowLse
  refine congrArg Ideal.log (Finset.sum_congr rfl fun k _ => ?_)
  show Ideal.exp (shiftK l (ix2 p k)) = _
  rw [shiftK_apply]

/-! ## What the body leaves in the output's buffer -/

/-- A whole-buffer access starts at offset zero on both axes. -/
theorem hz : (![0, 0] : Fin 2 → Nat) = fun _ => 0 := funext fun a => by fin_cases a <;> rfl

/-- The body's one store covers the output's buffer and its nine loads read the whole input buffers, so the buffer
    ends at the payload of the nine blocks. -/
theorem out_eq (x0 : Vec Ideal S256x16384 .bf16) (x1 : Vec Ideal S16384x128 .bf16) (x2 : Vec Ideal S1x128 .f32)
    (x3 x4 : Vec Ideal S256x256 .f32) (x5 x6 : Vec Ideal S256x16 .bf16) (x7 : Vec Ideal S128x16 .bf16)
    (x8 : Vec Ideal S1x16 .f32) :
    out3_9 (F := Ideal) x0 x1 x2 x3 x4 x5 x6 x7 x8
      = Gcn.logSoftmax (Gcn.logits3 x3 x4 (Gcn.conv x0 x1 x2) x5 x6 x7 x8) := by
  unfold out3_9
  rw [View.canon_unit_zero hz]
  simp only [View.ld_unit_zero (S := S256x16384) hz, View.ld_unit_zero (S := S16384x128) hz,
    View.ld_unit_zero (S := S1x128) hz, View.ld_unit_zero (S := S256x256) hz, View.ld_unit_zero (S := S256x16) hz,
    View.ld_unit_zero (S := S128x16) hz, View.ld_unit_zero (S := S1x16) hz]
  exact pay_eq x0 x1 x2 x3 x4 x5 x6 x7 x8

/-! ## The blocks -/

/-- The block indices at grid point t: windows 0, 3, 4 and 9 take row block t (column block 0); windows 1, 2, 5, 6, 7
    and 8 always block (0, 0). -/
theorem idx_facts : ∀ t : Fin cfg3.N,
    (win3_0.index t (0 : Fin 2) = t.val ∧ win3_0.index t (1 : Fin 2) = 0)
    ∧ (win3_3.index t (0 : Fin 2) = t.val ∧ win3_3.index t (1 : Fin 2) = 0)
    ∧ (win3_4.index t (0 : Fin 2) = t.val ∧ win3_4.index t (1 : Fin 2) = 0)
    ∧ (win3_9.index t (0 : Fin 2) = t.val ∧ win3_9.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0) :=
  (by decide +kernel : ∀ t : Fin grid3.N, _)

theorem idx_rows0 (t : Fin cfg3.N) : win3_0.index t (0 : Fin 2) = t.val ∧ win3_0.index t (1 : Fin 2) = 0 := by
  obtain ⟨r0, r3, r4, r9, w1, w2, w5, w6, w7, w8⟩ := idx_facts t
  exact r0
theorem idx_rows3 (t : Fin cfg3.N) : win3_3.index t (0 : Fin 2) = t.val ∧ win3_3.index t (1 : Fin 2) = 0 := by
  obtain ⟨r0, r3, r4, r9, w1, w2, w5, w6, w7, w8⟩ := idx_facts t
  exact r3
theorem idx_rows4 (t : Fin cfg3.N) : win3_4.index t (0 : Fin 2) = t.val ∧ win3_4.index t (1 : Fin 2) = 0 := by
  obtain ⟨r0, r3, r4, r9, w1, w2, w5, w6, w7, w8⟩ := idx_facts t
  exact r4
theorem idx_rows9 (t : Fin cfg3.N) : win3_9.index t (0 : Fin 2) = t.val ∧ win3_9.index t (1 : Fin 2) = 0 := by
  obtain ⟨r0, r3, r4, r9, w1, w2, w5, w6, w7, w8⟩ := idx_facts t
  exact r9
theorem idx_whole1 (t : Fin cfg3.N) : win3_1.index t (0 : Fin 2) = 0 ∧ win3_1.index t (1 : Fin 2) = 0 := by
  obtain ⟨r0, r3, r4, r9, w1, w2, w5, w6, w7, w8⟩ := idx_facts t
  exact w1
theorem idx_whole2 (t : Fin cfg3.N) : win3_2.index t (0 : Fin 2) = 0 ∧ win3_2.index t (1 : Fin 2) = 0 := by
  obtain ⟨r0, r3, r4, r9, w1, w2, w5, w6, w7, w8⟩ := idx_facts t
  exact w2
theorem idx_whole5 (t : Fin cfg3.N) : win3_5.index t (0 : Fin 2) = 0 ∧ win3_5.index t (1 : Fin 2) = 0 := by
  obtain ⟨r0, r3, r4, r9, w1, w2, w5, w6, w7, w8⟩ := idx_facts t
  exact w5
theorem idx_whole6 (t : Fin cfg3.N) : win3_6.index t (0 : Fin 2) = 0 ∧ win3_6.index t (1 : Fin 2) = 0 := by
  obtain ⟨r0, r3, r4, r9, w1, w2, w5, w6, w7, w8⟩ := idx_facts t
  exact w6
theorem idx_whole7 (t : Fin cfg3.N) : win3_7.index t (0 : Fin 2) = 0 ∧ win3_7.index t (1 : Fin 2) = 0 := by
  obtain ⟨r0, r3, r4, r9, w1, w2, w5, w6, w7, w8⟩ := idx_facts t
  exact w7
theorem idx_whole8 (t : Fin cfg3.N) : win3_8.index t (0 : Fin 2) = 0 ∧ win3_8.index t (1 : Fin 2) = 0 := by
  obtain ⟨r0, r3, r4, r9, w1, w2, w5, w6, w7, w8⟩ := idx_facts t
  exact w8

/-- Row block t of 256 rows lies inside the 16384 rows: there are 64 points. -/
theorem rows_le (t : Fin cfg3.N) : t.val * 256 + 256 ≤ 16384 := by
  have hN : cfg3.N = 64 := N_3
  have ht : t.val < cfg3.N := t.isLt
  omega

/-- Window 0's block at point t, read off a [16384, 16384] array, is the array's row block t: entry (p, q) of the
    block is entry (256·t + p, q) of the array. -/
theorem read_blk0 (t : Fin cfg3.N) (h : t.val * 256 + 256 ≤ 16384) (X : Gcn.A2 16384 16384) :
    ((cfg3.win 0).blk t).view.read (Elt Ideal) X = Gcn.rowBlock 256 t.val h X := by
  obtain ⟨e0, e1⟩ := idx_rows0 t
  funext y
  rw [View.read_apply]
  show X _ = X (ix2 ⟨t.val * 256 + (y 0).val, _⟩ (y 1))
  refine congrArg X ?_
  funext a; apply Fin.ext
  match a with
  | ⟨0, _⟩ => show win3_0.index t (0 : Fin 2) * 256 + 1 * (y 0).val = t.val * 256 + (y 0).val; omega
  | ⟨1, _⟩ => show win3_0.index t (1 : Fin 2) * 16384 + 1 * (y 1).val = (y 1).val; omega

/-- Window 3's block at point t, read off a [16384, 256] array, is the array's row block t: entry (p, q) of the
    block is entry (256·t + p, q) of the array. -/
theorem read_blk3 (t : Fin cfg3.N) (h : t.val * 256 + 256 ≤ 16384) (X : Gcn.A2 16384 256) :
    ((cfg3.win 3).blk t).view.read (Elt Ideal) X = Gcn.rowBlock 256 t.val h X := by
  obtain ⟨e0, e1⟩ := idx_rows3 t
  funext y
  rw [View.read_apply]
  show X _ = X (ix2 ⟨t.val * 256 + (y 0).val, _⟩ (y 1))
  refine congrArg X ?_
  funext a; apply Fin.ext
  match a with
  | ⟨0, _⟩ => show win3_3.index t (0 : Fin 2) * 256 + 1 * (y 0).val = t.val * 256 + (y 0).val; omega
  | ⟨1, _⟩ => show win3_3.index t (1 : Fin 2) * 256 + 1 * (y 1).val = (y 1).val; omega

/-- Window 4's block at point t, read off a [16384, 256] array, is the array's row block t: entry (p, q) of the
    block is entry (256·t + p, q) of the array. -/
theorem read_blk4 (t : Fin cfg3.N) (h : t.val * 256 + 256 ≤ 16384) (X : Gcn.A2 16384 256) :
    ((cfg3.win 4).blk t).view.read (Elt Ideal) X = Gcn.rowBlock 256 t.val h X := by
  obtain ⟨e0, e1⟩ := idx_rows4 t
  funext y
  rw [View.read_apply]
  show X _ = X (ix2 ⟨t.val * 256 + (y 0).val, _⟩ (y 1))
  refine congrArg X ?_
  funext a; apply Fin.ext
  match a with
  | ⟨0, _⟩ => show win3_4.index t (0 : Fin 2) * 256 + 1 * (y 0).val = t.val * 256 + (y 0).val; omega
  | ⟨1, _⟩ => show win3_4.index t (1 : Fin 2) * 256 + 1 * (y 1).val = (y 1).val; omega

/-- Window 9's block at point t, read off a [16384, 16] array, is the array's row block t: entry (p, q) of the
    block is entry (256·t + p, q) of the array. -/
theorem read_blk9 (t : Fin cfg3.N) (h : t.val * 256 + 256 ≤ 16384) (X : Gcn.A2 16384 16) :
    ((cfg3.win 9).blk t).view.read (Elt Ideal) X = Gcn.rowBlock 256 t.val h X := by
  obtain ⟨e0, e1⟩ := idx_rows9 t
  funext y
  rw [View.read_apply]
  show X _ = X (ix2 ⟨t.val * 256 + (y 0).val, _⟩ (y 1))
  refine congrArg X ?_
  funext a; apply Fin.ext
  match a with
  | ⟨0, _⟩ => show win3_9.index t (0 : Fin 2) * 256 + 1 * (y 0).val = t.val * 256 + (y 0).val; omega
  | ⟨1, _⟩ => show win3_9.index t (1 : Fin 2) * 16 + 1 * (y 1).val = (y 1).val; omega

/-- Window 1's block at every point, read off a [16384, 128] array, is the array. -/
theorem read_blk1 (t : Fin cfg3.N) (X : Gcn.A2 16384 128) :
    ((cfg3.win 1).blk t).view.read (Elt Ideal) X = X := by
  obtain ⟨e0, e1⟩ := idx_whole1 t
  funext y
  rw [View.read_apply]
  show X _ = X y
  refine congrArg X ?_
  funext a; apply Fin.ext
  match a with
  | ⟨0, _⟩ => show win3_1.index t (0 : Fin 2) * 16384 + 1 * (y 0).val = (y 0).val; omega
  | ⟨1, _⟩ => show win3_1.index t (1 : Fin 2) * 128 + 1 * (y 1).val = (y 1).val; omega

/-- Window 2's block at every point, read off a [1, 128] array, is the array. -/
theorem read_blk2 (t : Fin cfg3.N) (X : Gcn.A2 1 128) :
    ((cfg3.win 2).blk t).view.read (Elt Ideal) X = X := by
  obtain ⟨e0, e1⟩ := idx_whole2 t
  funext y
  rw [View.read_apply]
  show X _ = X y
  refine congrArg X ?_
  funext a; apply Fin.ext
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- Window 5's block at every point, read off a [256, 16] array, is the array. -/
theorem read_blk5 (t : Fin cfg3.N) (X : Gcn.A2 256 16) :
    ((cfg3.win 5).blk t).view.read (Elt Ideal) X = X := by
  obtain ⟨e0, e1⟩ := idx_whole5 t
  funext y
  rw [View.read_apply]
  show X _ = X y
  refine congrArg X ?_
  funext a; apply Fin.ext
  match a with
  | ⟨0, _⟩ => show win3_5.index t (0 : Fin 2) * 256 + 1 * (y 0).val = (y 0).val; omega
  | ⟨1, _⟩ => show win3_5.index t (1 : Fin 2) * 16 + 1 * (y 1).val = (y 1).val; omega

/-- Window 6's block at every point, read off a [256, 16] array, is the array. -/
theorem read_blk6 (t : Fin cfg3.N) (X : Gcn.A2 256 16) :
    ((cfg3.win 6).blk t).view.read (Elt Ideal) X = X := by
  obtain ⟨e0, e1⟩ := idx_whole6 t
  funext y
  rw [View.read_apply]
  show X _ = X y
  refine congrArg X ?_
  funext a; apply Fin.ext
  match a with
  | ⟨0, _⟩ => show win3_6.index t (0 : Fin 2) * 256 + 1 * (y 0).val = (y 0).val; omega
  | ⟨1, _⟩ => show win3_6.index t (1 : Fin 2) * 16 + 1 * (y 1).val = (y 1).val; omega

/-- Window 7's block at every point, read off a [128, 16] array, is the array. -/
theorem read_blk7 (t : Fin cfg3.N) (X : Gcn.A2 128 16) :
    ((cfg3.win 7).blk t).view.read (Elt Ideal) X = X := by
  obtain ⟨e0, e1⟩ := idx_whole7 t
  funext y
  rw [View.read_apply]
  show X _ = X y
  refine congrArg X ?_
  funext a; apply Fin.ext
  match a with
  | ⟨0, _⟩ => show win3_7.index t (0 : Fin 2) * 128 + 1 * (y 0).val = (y 0).val; omega
  | ⟨1, _⟩ => show win3_7.index t (1 : Fin 2) * 16 + 1 * (y 1).val = (y 1).val; omega

/-- Window 8's block at every point, read off a [1, 16] array, is the array. -/
theorem read_blk8 (t : Fin cfg3.N) (X : Gcn.A2 1 16) :
    ((cfg3.win 8).blk t).view.read (Elt Ideal) X = X := by
  obtain ⟨e0, e1⟩ := idx_whole8 t
  funext y
  rw [View.read_apply]
  show X _ = X y
  refine congrArg X ?_
  funext a; apply Fin.ext
  match a with
  | ⟨0, _⟩ => show win3_8.index t (0 : Fin 2) * 1 + 1 * (y 0).val = (y 0).val; omega
  | ⟨1, _⟩ => show win3_8.index t (1 : Fin 2) * 16 + 1 * (y 1).val = (y 1).val; omega

/-- The blocks the body loads at point t: row block t of the adjacency copy and of the two hidden arrays, and the
    six whole arrays. -/
theorem iblk_0 (c : Dev nD) (t : Fin cfg3.N) (h : t.val * 256 + 256 ≤ 16384) :
    iblk3 (F := Ideal) V c 0 t = Gcn.rowBlock 256 t.val h (V c main_v11_1) := by
  unfold iblk3
  exact read_blk0 t h (V c main_v11_1)
theorem iblk_3 (c : Dev nD) (t : Fin cfg3.N) (h : t.val * 256 + 256 ≤ 16384) :
    iblk3 (F := Ideal) V c 3 t = Gcn.rowBlock 256 t.val h (V c main_v11_0) := by
  unfold iblk3
  exact read_blk3 t h (V c main_v11_0)
theorem iblk_4 (c : Dev nD) (t : Fin cfg3.N) (h : t.val * 256 + 256 ≤ 16384) :
    iblk3 (F := Ideal) V c 4 t = Gcn.rowBlock 256 t.val h (V c main_v13_0) := by
  unfold iblk3
  exact read_blk4 t h (V c main_v13_0)
theorem iblk_1 (c : Dev nD) (t : Fin cfg3.N) : iblk3 (F := Ideal) V c 1 t = V c main_v13_1 := by
  unfold iblk3
  exact read_blk1 t (V c main_v13_1)
theorem iblk_2 (c : Dev nD) (t : Fin cfg3.N) : iblk3 (F := Ideal) V c 2 t = V c main_v14 := by
  unfold iblk3
  exact read_blk2 t (V c main_v14)
theorem iblk_5 (c : Dev nD) (t : Fin cfg3.N) : iblk3 (F := Ideal) V c 5 t = V c main_v4 := by
  unfold iblk3
  exact read_blk5 t (V c main_v4)
theorem iblk_6 (c : Dev nD) (t : Fin cfg3.N) : iblk3 (F := Ideal) V c 6 t = V c main_v6 := by
  unfold iblk3
  exact read_blk6 t (V c main_v6)
theorem iblk_7 (c : Dev nD) (t : Fin cfg3.N) : iblk3 (F := Ideal) V c 7 t = V c main_v8 := by
  unfold iblk3
  exact read_blk7 t (V c main_v8)
theorem iblk_8 (c : Dev nD) (t : Fin cfg3.N) : iblk3 (F := Ideal) V c 8 t = V c main_v15 := by
  unfold iblk3
  exact read_blk8 t (V c main_v15)

/-! ## What each point writes back, and the array they tile -/

/-- Point t writes back row block t of the one whole-array function: the convolution, the logits and the row
    log-softmax are each row-local in the row-blocked operands, so the payload of row block t of the three
    row-blocked arrays is row block t of the function of the whole arrays. -/
theorem flushed_eq (c : Dev nD) (t : Fin cfg3.N) :
    (dat3 (F := Ideal) V c).flushed 9 t
      = ((cfg3.win 9).blk t).view.read (Elt Ideal)
          (Gcn.logSoftmax (Gcn.logits3 (V c main_v11_0) (V c main_v13_0)
            (Gcn.conv (V c main_v11_1) (V c main_v13_1) (V c main_v14))
            (V c main_v4) (V c main_v6) (V c main_v8) (V c main_v15))) := by
  have h : t.val * 256 + 256 ≤ 16384 := rows_le t
  show (cfg3.win 9).cut (grid3.coords t) ((dat3 (F := Ideal) V c).after 9 t) = _
  rw [after3_9, out_eq (iblk3 V c 0 t) (iblk3 V c 1 t) (iblk3 V c 2 t) (iblk3 V c 3 t) (iblk3 V c 4 t)
      (iblk3 V c 5 t) (iblk3 V c 6 t) (iblk3 V c 7 t) (iblk3 V c 8 t),
    iblk_0 V c t h, iblk_1 V c t, iblk_2 V c t, iblk_3 V c t h, iblk_4 V c t h, iblk_5 V c t, iblk_6 V c t,
    iblk_7 V c t, iblk_8 V c t, Gcn.conv_rowBlock, Gcn.logits3_rowBlock, Gcn.logSoftmax_rowBlock, read_blk9 t h]
  rfl

/-- An index of the result array is in point t's block iff each coordinate is in the block's range on its axis. -/
theorem mem_blk (t : Fin cfg3.N) (i : S16384x16.Idx) :
    i ∈ ((cfg3.win 9).blk t).view.set ↔ ∀ a : Fin 2, win3_9.index t a * S256x16.size a ≤ (i a).val
      ∧ (i a).val < win3_9.index t a * S256x16.size a + S256x16.size a := by
  show i ∈ ((View.whole main_v16).slice (win3_9.rect t)).set ↔ _
  rw [View.set_slice_whole, Rect.mem_set_unit]
  exact Iff.rfl

/-- The 64 row blocks tile the result array: row r is in the block of point r / 256, and every point writes its
    block back. -/
theorem cover (i : S16384x16.Idx) :
    ∃ t : Fin cfg3.N, (cfg3.win 9).flush t = true ∧ i ∈ ((cfg3.win 9).blk t).view.set := by
  have hi0 : (i 0).val < 16384 := (i 0).isLt
  have hi1 : (i 1).val < 16 := (i 1).isLt
  have hN : cfg3.N = 64 := N_3
  obtain ⟨t, ht⟩ : ∃ t : Fin cfg3.N, t.val = (i 0).val / 256 := ⟨⟨(i 0).val / 256, by omega⟩, rfl⟩
  obtain ⟨e0, e1⟩ := idx_rows9 t
  refine ⟨t, flush3_9 t, ?_⟩
  rw [mem_blk]
  intro a
  match a with
  | ⟨0, _⟩ =>
    show win3_9.index t (0 : Fin 2) * 256 ≤ (i 0).val ∧ (i 0).val < win3_9.index t (0 : Fin 2) * 256 + 256
    omega
  | ⟨1, _⟩ =>
    show win3_9.index t (1 : Fin 2) * 16 ≤ (i 1).val ∧ (i 1).val < win3_9.index t (1 : Fin 2) * 16 + 16
    omega

/-- After the region, window 9's array is the row log-softmax of the classifier's logits over windows 3 and 4 (the hidden
    layers), the convolution of windows 0, 1, 2 (adjacency, support, bias row), the slabs in windows 5, 6, 7 and the
    bias row in window 8. -/
theorem value_9 (c : Dev nD) :
    (dat3 (F := Ideal) V c).arrAt 9 cfg3.N
      = Gcn.logSoftmax (Gcn.logits3 (V c main_v11_0) (V c main_v13_0)
          (Gcn.conv (V c main_v11_1) (V c main_v13_1) (V c main_v14))
          (V c main_v4) (V c main_v6) (V c main_v8) (V c main_v15)) :=
  (dat3 (F := Ideal) V c).arrAt_eq_of_cover 9 _ (fun t _ => flushed_eq V c t) cover

end Gcn.Region3

end
-- ==== Proof.Layouts.lean ====
/-
  Two layout facts the host side of the kernel's program needs, on arrays of extended reals.

  A vector reshaped to one row is that vector as a [1, n] array; a slice of h consecutive rows (all columns) of a
  matrix is its row slab.
-/
import proofs.«162995_j33741263077612_2_alg».proof.Proof.Spec
import Idealize.ShloMosaic.Lib.Pipeline.Value
import Idealize.ShloMosaic.Lib.ValueIdx

noncomputable section

namespace Gcn

open Idealize.ShloMosaic Idealize.ShloMosaic.ValueIdx

/-- A vector cast to shape [1, n] is the vector as one row: entry (0, q) of the result is entry q. -/
theorem shapeCast_row {n : Nat} (v : A1 n) (h : (⟨1, ![n]⟩ : Shape).ShapeCasts ⟨2, ![1, n]⟩) :
    shapeCast ⟨2, ![1, n]⟩ v h = rowOf v := by
  funext j
  refine (shapeCast_addUnit_apply ![n] v h j).trans ?_
  refine congrArg v ?_
  funext a
  match a with
  | ⟨0, _⟩ => rfl

/-- The slice of rows o … o + h − 1, all c columns, of a [K, c] array is its row slab. -/
theorem slice_rows {K c : Nat} (h o : Nat) (ho : o + h ≤ K) (x : A2 K c)
    (hs : (⟨2, ![K, c]⟩ : Shape).Slices ![o, 0] ⟨2, ![h, c]⟩) :
    extractStridedSlice ⟨2, ![h, c]⟩ ![o, 0] x hs = rowSlab h o ho x := by
  funext j
  refine extractStridedSlice_apply ![o, 0] x hs j (ix2 ⟨o + (j 0).val, by have := idx2_lt0 j; omega⟩ (j 1)) fun a => ?_
  match a with
  | ⟨0, _⟩ => rfl
  | ⟨1, _⟩ => exact (Nat.zero_add _).symm

end Gcn

end
-- ==== Proof.Thread.lean ====
/-
  The kernel's program from launch to return, read as one whole-array function of its ten arguments.

  @main is four regions among short stretches of host operations.  The host operations round weights to a narrower
  format (the identity on extended reals), slice the classifier's weight into its three row slabs, and reshape each
  bias vector to one row.  Each region's output arrays are whole-array functions of its input arrays (the region
  modules); here those are chained: a buffer is followed from the operation or region that writes it to the region
  that reads it, through every stretch and region in between, none of which writes it.  The adjacency array reaches
  the third and fourth regions through the copy the second region makes of it, which on extended reals is the
  array itself.  The result buffer then holds the network of the specification.
-/
import proofs.«162995_j33741263077612_2_alg».proof.Proof.Gen.KernelIdeal.Frame
import proofs.«162995_j33741263077612_2_alg».proof.Proof.Spec
import proofs.«162995_j33741263077612_2_alg».proof.Proof.Layouts
import Idealize.ShloMosaic.Lib.Pipeline.Value
import Idealize.ShloMosaic.Lib.ValueIdx

set_option maxRecDepth 16384

noncomputable section

namespace Gcn.Thread

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## A buffer a host stretch does not write keeps its contents -/

/-- Across the first stretch (the roundings and slices of the weights), for a buffer none of them writes. -/
theorem skip0 (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) (h7 : b ≠ main_v7) (h8 : b ≠ main_v8) :
    W1 m ρ c (Proc.devRef .tc b) = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8⟩))

/-- Across the second stretch (the first bias's reshape). -/
theorem skip1 (c : Dev nD) (b : Ref sig .tc) (h : b ≠ main_v10) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h))

/-- Across the third stretch (the second bias's reshape). -/
theorem skip2 (c : Dev nD) (b : Ref sig .tc) (h : b ≠ main_v12) :
    W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h))

/-- Across the fourth stretch (the last two biases' reshapes). -/
theorem skip3 (c : Dev nD) (b : Ref sig .tc) (h : b ≠ main_v14) (h' : b ≠ main_v15) :
    W7 m ρ c (Proc.devRef .tc b) = W6 m ρ c (Proc.devRef .tc b) :=
  StableHlo.after_of_forall_not_mem (b := Proc.devRef .tc b) _ _ (List.forall_iff_forall_mem.mp (by
    simp only [hostOps3, List.Forall, StableHlo.reshape_writes, Finset.mem_singleton]
    exact ⟨StableHlo.devRef_ne_of_ne h, StableHlo.devRef_ne_of_ne h'⟩))

/-! ## What the host stretches write

On extended reals a rounding to a narrower format is the identity, a slice of rows is a row slab, and a vector
reshaped to [1, n] is the vector as one row. -/

/-- The first weight, rounded: the weight. -/
theorem w1_v0 (c : Dev nD) : W1 m ρ c (Proc.devRef .tc main_v0) = m ((c : Thread nD τ).loc main_arg2) := by
  show StableHlo.after hostOps0 (W0 m ρ c) (Proc.devRef .tc main_v0) = _
  after_results; rfl

/-- The second weight, rounded: the weight. -/
theorem w1_v1 (c : Dev nD) : W1 m ρ c (Proc.devRef .tc main_v1) = m ((c : Thread nD τ).loc main_arg4) := by
  show StableHlo.after hostOps0 (W0 m ρ c) (Proc.devRef .tc main_v1) = _
  after_results; rfl

/-- The third weight, rounded: the weight. -/
theorem w1_v2 (c : Dev nD) : W1 m ρ c (Proc.devRef .tc main_v2) = m ((c : Thread nD τ).loc main_arg6) := by
  show StableHlo.after hostOps0 (W0 m ρ c) (Proc.devRef .tc main_v2) = _
  after_results; rfl

/-- Rows 0 … 255 of the classifier's weight, rounded: its first row slab. -/
theorem w1_v4 (c : Dev nD) :
    W1 m ρ c (Proc.devRef .tc main_v4) = Gcn.rowSlab 256 0 (by omega) (m ((c : Thread nD τ).loc main_arg8)) := by
  show StableHlo.after hostOps0 (W0 m ρ c) (Proc.devRef .tc main_v4) = _
  after_results
  exact Gcn.slice_rows 256 0 (by omega) (m ((c : Thread nD τ).loc main_arg8)) slices_S640x16_S256x16_0_0

/-- Rows 256 … 511 of the classifier's weight, rounded: its second row slab. -/
theorem w1_v6 (c : Dev nD) :
    W1 m ρ c (Proc.devRef .tc main_v6) = Gcn.rowSlab 256 256 (by omega) (m ((c : Thread nD τ).loc main_arg8)) := by
  show StableHlo.after hostOps0 (W0 m ρ c) (Proc.devRef .tc main_v6) = _
  after_results
  exact Gcn.slice_rows 256 256 (by omega) (m ((c : Thread nD τ).loc main_arg8)) slices_S640x16_S256x16_256_0

/-- Rows 512 … 639 of the classifier's weight, rounded: its third row slab. -/
theorem w1_v8 (c : Dev nD) :
    W1 m ρ c (Proc.devRef .tc main_v8) = Gcn.rowSlab 128 512 (by omega) (m ((c : Thread nD τ).loc main_arg8)) := by
  show StableHlo.after hostOps0 (W0 m ρ c) (Proc.devRef .tc main_v8) = _
  after_results
  exact Gcn.slice_rows 128 512 (by omega) (m ((c : Thread nD τ).loc main_arg8)) slices_S640x16_S128x16_512_0

/-! ## The regions' output arrays as functions of their input arrays: taken as hypotheses here, proved in the region modules -/

section Chain

variable
  (hr0 : ∀ (V : (c : Dev nD) → (b : Ref sig .tc) → Buf (Elt Ideal) ((c : Thread nD τ).loc b)) (c : Dev nD),
    (dat0 (F := Ideal) V c).arrAt 2 cfg0.N = Gcn.mm (V c main_arg0) (V c main_v0))
  (hr1_4 : ∀ (V : (c : Dev nD) → (b : Ref sig .tc) → Buf (Elt Ideal) ((c : Thread nD τ).loc b)) (c : Dev nD),
    (dat1 (F := Ideal) V c).arrAt 4 cfg1.N = Gcn.layer (V c main_arg1) (V c main_v9) (V c main_v10))
  (hr1_5 : ∀ (V : (c : Dev nD) → (b : Ref sig .tc) → Buf (Elt Ideal) ((c : Thread nD τ).loc b)) (c : Dev nD),
    (dat1 (F := Ideal) V c).arrAt 5 cfg1.N = V c main_arg1)
  (hr1_6 : ∀ (V : (c : Dev nD) → (b : Ref sig .tc) → Buf (Elt Ideal) ((c : Thread nD τ).loc b)) (c : Dev nD),
    (dat1 (F := Ideal) V c).arrAt 6 cfg1.N
      = Gcn.mm (Gcn.layer (V c main_arg1) (V c main_v9) (V c main_v10)) (V c main_v1))
  (hr2_4 : ∀ (V : (c : Dev nD) → (b : Ref sig .tc) → Buf (Elt Ideal) ((c : Thread nD τ).loc b)) (c : Dev nD),
    (dat2 (F := Ideal) V c).arrAt 4 cfg2.N = Gcn.layer (V c main_v11_1) (V c main_v11_2) (V c main_v12))
  (hr2_5 : ∀ (V : (c : Dev nD) → (b : Ref sig .tc) → Buf (Elt Ideal) ((c : Thread nD τ).loc b)) (c : Dev nD),
    (dat2 (F := Ideal) V c).arrAt 5 cfg2.N
      = Gcn.mm (Gcn.layer (V c main_v11_1) (V c main_v11_2) (V c main_v12)) (V c main_v2))
  (hr3 : ∀ (V : (c : Dev nD) → (b : Ref sig .tc) → Buf (Elt Ideal) ((c : Thread nD τ).loc b)) (c : Dev nD),
    (dat3 (F := Ideal) V c).arrAt 9 cfg3.N
      = Gcn.logSoftmax (Gcn.logits3 (V c main_v11_0) (V c main_v13_0)
          (Gcn.conv (V c main_v11_1) (V c main_v13_1) (V c main_v14))
          (V c main_v4) (V c main_v6) (V c main_v8) (V c main_v15)))

/-! ### An argument no host operation and no region up to a boundary writes is as launched there -/

theorem keep1 (c : Dev nD) (b : Ref sig .tc)
    (h : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    W1 m ρ c (Proc.devRef .tc b) = m ((c : Thread nD τ).loc b) :=
  skip0 m ρ c b h.1 h.2.1 h.2.2.1 h.2.2.2.1 h.2.2.2.2.1 h.2.2.2.2.2.1 h.2.2.2.2.2.2.1 h.2.2.2.2.2.2.2.1 h.2.2.2.2.2.2.2.2

theorem keep2 (c : Dev nD) (b : Ref sig .tc)
    (h : b ≠ main_v0 ∧ b ≠ main_v1 ∧ b ≠ main_v2 ∧ b ≠ main_v3 ∧ b ≠ main_v4 ∧ b ≠ main_v5 ∧ b ≠ main_v6 ∧ b ≠ main_v7 ∧ b ≠ main_v8)
    (h0 : ∀ w, Pipeline.arrRef spec0 w ≠ b) : W2 m ρ c (Proc.devRef .tc b) = m ((c : Thread nD τ).loc b) :=
  (W2_of_ne m ρ c b h0).trans (keep1 m ρ c b h)

theorem keep4 (c : Dev nD) (b : Ref sig .tc)
    (h : b ≠ main_v0 ∧ b ≠ main_v1 ∧ b ≠ main_v2 ∧ b ≠ main_v3 ∧ b ≠ main_v4 ∧ b ≠ main_v5 ∧ b ≠ main_v6 ∧ b ≠ main_v7 ∧ b ≠ main_v8)
    (h0 : ∀ w, Pipeline.arrRef spec0 w ≠ b) (h10 : b ≠ main_v10) (h1 : ∀ w, Pipeline.arrRef spec1 w ≠ b) :
    W4 m ρ c (Proc.devRef .tc b) = m ((c : Thread nD τ).loc b) :=
  (W4_of_ne m ρ c b h1).trans ((skip1 m ρ c b h10).trans (keep2 m ρ c b h h0))

theorem keep6 (c : Dev nD) (b : Ref sig .tc)
    (h : b ≠ main_v0 ∧ b ≠ main_v1 ∧ b ≠ main_v2 ∧ b ≠ main_v3 ∧ b ≠ main_v4 ∧ b ≠ main_v5 ∧ b ≠ main_v6 ∧ b ≠ main_v7 ∧ b ≠ main_v8)
    (h0 : ∀ w, Pipeline.arrRef spec0 w ≠ b) (h10 : b ≠ main_v10) (h1 : ∀ w, Pipeline.arrRef spec1 w ≠ b)
    (h12 : b ≠ main_v12) (h2 : ∀ w, Pipeline.arrRef spec2 w ≠ b) :
    W6 m ρ c (Proc.devRef .tc b) = m ((c : Thread nD τ).loc b) :=
  (W6_of_ne m ρ c b h2).trans ((skip2 m ρ c b h12).trans (keep4 m ρ c b h h0 h10 h1))

/-! ### The first region: the support of the first layer -/

theorem v1_arg0 (c : Dev nD) : V1 m ρ c main_arg0 = m ((c : Thread nD τ).loc main_arg0) := keep1 m ρ c main_arg0 (by decide)
theorem v1_v0 (c : Dev nD) : V1 m ρ c main_v0 = m ((c : Thread nD τ).loc main_arg2) := w1_v0 m ρ c

include hr0 in
/-- After the first region its output buffer holds features · first weight. -/
theorem w2_v9 (c : Dev nD) : W2 m ρ c (Proc.devRef .tc main_v9)
    = Gcn.mm (m ((c : Thread nD τ).loc main_arg0)) (m ((c : Thread nD τ).loc main_arg2)) :=
  (W2_arr m ρ c 2).trans ((hr0 (V1 m ρ) c).trans (by rw [v1_arg0 m ρ c, v1_v0 m ρ c]))

/-! ### The second region: the first hidden layer, the adjacency's copy, the second layer's support -/

theorem v3_arg1 (c : Dev nD) : V3 m ρ c main_arg1 = m ((c : Thread nD τ).loc main_arg1) :=
  (skip1 m ρ c main_arg1 (by decide)).trans (keep2 m ρ c main_arg1 (by decide) (by decide))

include hr0 in
theorem v3_v9 (c : Dev nD) : V3 m ρ c main_v9
    = Gcn.mm (m ((c : Thread nD τ).loc main_arg0)) (m ((c : Thread nD τ).loc main_arg2)) :=
  (skip1 m ρ c main_v9 (by decide)).trans (w2_v9 m ρ hr0 c)

theorem v3_v10 (c : Dev nD) : V3 m ρ c main_v10 = Gcn.rowOf (m ((c : Thread nD τ).loc main_arg3)) := by
  show StableHlo.after hostOps1 (W2 m ρ c) (Proc.devRef .tc main_v10) = _
  after_results
  rw [keep2 m ρ c main_arg3 (by decide) (by decide)]
  exact Gcn.shapeCast_row _ _

theorem v3_v1 (c : Dev nD) : V3 m ρ c main_v1 = m ((c : Thread nD τ).loc main_arg4) :=
  (skip1 m ρ c main_v1 (by decide)).trans ((W2_of_ne m ρ c main_v1 (by decide)).trans (w1_v1 m ρ c))

include hr0 hr1_4 in
/-- After the second region its first output buffer holds the first hidden layer. -/
theorem w4_v11_0 (c : Dev nD) : W4 m ρ c (Proc.devRef .tc main_v11_0)
    = Gcn.hid1 (m ((c : Thread nD τ).loc main_arg0)) (m ((c : Thread nD τ).loc main_arg1)) (m ((c : Thread nD τ).loc main_arg2))
        (m ((c : Thread nD τ).loc main_arg3)) :=
  (W4_arr m ρ c 4).trans ((hr1_4 (V3 m ρ) c).trans (by rw [v3_arg1 m ρ c, v3_v9 m ρ hr0 c, v3_v10 m ρ c]; rfl))

include hr1_5 in
/-- Its second output buffer holds the adjacency array itself. -/
theorem w4_v11_1 (c : Dev nD) : W4 m ρ c (Proc.devRef .tc main_v11_1) = m ((c : Thread nD τ).loc main_arg1) :=
  (W4_arr m ρ c 5).trans ((hr1_5 (V3 m ρ) c).trans (v3_arg1 m ρ c))

include hr0 hr1_6 in
/-- Its third output buffer holds first hidden layer · second weight. -/
theorem w4_v11_2 (c : Dev nD) : W4 m ρ c (Proc.devRef .tc main_v11_2)
    = Gcn.mm (Gcn.hid1 (m ((c : Thread nD τ).loc main_arg0)) (m ((c : Thread nD τ).loc main_arg1)) (m ((c : Thread nD τ).loc main_arg2))
        (m ((c : Thread nD τ).loc main_arg3))) (m ((c : Thread nD τ).loc main_arg4)) :=
  (W4_arr m ρ c 6).trans ((hr1_6 (V3 m ρ) c).trans (by rw [v3_arg1 m ρ c, v3_v9 m ρ hr0 c, v3_v10 m ρ c, v3_v1 m ρ c]; rfl))

/-! ### The third region: the second hidden layer and the third layer's support -/

include hr1_5 in
theorem v5_v11_1 (c : Dev nD) : V5 m ρ c main_v11_1 = m ((c : Thread nD τ).loc main_arg1) :=
  (skip2 m ρ c main_v11_1 (by decide)).trans (w4_v11_1 m ρ hr1_5 c)

include hr0 hr1_6 in
theorem v5_v11_2 (c : Dev nD) : V5 m ρ c main_v11_2
    = Gcn.mm (Gcn.hid1 (m ((c : Thread nD τ).loc main_arg0)) (m ((c : Thread nD τ).loc main_arg1)) (m ((c : Thread nD τ).loc main_arg2))
        (m ((c : Thread nD τ).loc main_arg3))) (m ((c : Thread nD τ).loc main_arg4)) :=
  (skip2 m ρ c main_v11_2 (by decide)).trans (w4_v11_2 m ρ hr0 hr1_6 c)

theorem v5_v12 (c : Dev nD) : V5 m ρ c main_v12 = Gcn.rowOf (m ((c : Thread nD τ).loc main_arg5)) := by
  show StableHlo.after hostOps2 (W4 m ρ c) (Proc.devRef .tc main_v12) = _
  after_results
  rw [keep4 m ρ c main_arg5 (by decide) (by decide) (by decide) (by decide)]
  exact Gcn.shapeCast_row _ _

theorem v5_v2 (c : Dev nD) : V5 m ρ c main_v2 = m ((c : Thread nD τ).loc main_arg6) :=
  (skip2 m ρ c main_v2 (by decide)).trans ((W4_of_ne m ρ c main_v2 (by decide)).trans ((skip1 m ρ c main_v2 (by decide)).trans
    ((W2_of_ne m ρ c main_v2 (by decide)).trans (w1_v2 m ρ c))))

include hr0 hr1_5 hr1_6 hr2_4 in
/-- After the third region its first output buffer holds the second hidden layer. -/
theorem w6_v13_0 (c : Dev nD) : W6 m ρ c (Proc.devRef .tc main_v13_0)
    = Gcn.hid2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W6_arr m ρ c 4).trans ((hr2_4 (V5 m ρ) c).trans
    (by rw [v5_v11_1 m ρ hr1_5 c, v5_v11_2 m ρ hr0 hr1_6 c, v5_v12 m ρ c]; rfl))

include hr0 hr1_5 hr1_6 hr2_5 in
/-- Its second output buffer holds second hidden layer · third weight. -/
theorem w6_v13_1 (c : Dev nD) : W6 m ρ c (Proc.devRef .tc main_v13_1)
    = Gcn.mm (Gcn.hid2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)))
        (m ((c : Thread nD τ).loc main_arg6)) :=
  (W6_arr m ρ c 5).trans ((hr2_5 (V5 m ρ) c).trans
    (by rw [v5_v11_1 m ρ hr1_5 c, v5_v11_2 m ρ hr0 hr1_6 c, v5_v12 m ρ c, v5_v2 m ρ c]; rfl))

/-! ### The fourth region: the third convolution, the classifier and the row log-softmax -/

include hr1_5 in
/-- The adjacency's copy passes the third region as an input window's array: a region never writes those. -/
theorem v7_v11_1 (c : Dev nD) : V7 m ρ c main_v11_1 = m ((c : Thread nD τ).loc main_arg1) :=
  (skip3 m ρ c main_v11_1 (by decide) (by decide)).trans
    (((W6_arr m ρ c 0).trans (((dat2 (V5 m ρ) c).arrAt_in 0 rfl _).trans (A_eq2 (V5 m ρ) c 0))).trans (v5_v11_1 m ρ hr1_5 c))

include hr0 hr1_5 hr1_6 hr2_5 in
theorem v7_v13_1 (c : Dev nD) : V7 m ρ c main_v13_1
    = Gcn.mm (Gcn.hid2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)))
        (m ((c : Thread nD τ).loc main_arg6)) :=
  (skip3 m ρ c main_v13_1 (by decide) (by decide)).trans (w6_v13_1 m ρ hr0 hr1_5 hr1_6 hr2_5 c)

theorem v7_v14 (c : Dev nD) : V7 m ρ c main_v14 = Gcn.rowOf (m ((c : Thread nD τ).loc main_arg7)) := by
  show StableHlo.after hostOps3 (W6 m ρ c) (Proc.devRef .tc main_v14) = _
  after_results
  rw [keep6 m ρ c main_arg7 (by decide) (by decide) (by decide) (by decide) (by decide) (by decide)]
  exact Gcn.shapeCast_row _ _

theorem v7_v15 (c : Dev nD) : V7 m ρ c main_v15 = Gcn.rowOf (m ((c : Thread nD τ).loc main_arg9)) := by
  show StableHlo.after hostOps3 (W6 m ρ c) (Proc.devRef .tc main_v15) = _
  after_results
  rw [keep6 m ρ c main_arg9 (by decide) (by decide) (by decide) (by decide) (by decide) (by decide)]
  exact Gcn.shapeCast_row _ _

include hr0 hr1_4 in
theorem v7_v11_0 (c : Dev nD) : V7 m ρ c main_v11_0
    = Gcn.hid1 (m ((c : Thread nD τ).loc main_arg0)) (m ((c : Thread nD τ).loc main_arg1)) (m ((c : Thread nD τ).loc main_arg2))
        (m ((c : Thread nD τ).loc main_arg3)) :=
  (skip3 m ρ c main_v11_0 (by decide) (by decide)).trans ((W6_of_ne m ρ c main_v11_0 (by decide)).trans
    ((skip2 m ρ c main_v11_0 (by decide)).trans (w4_v11_0 m ρ hr0 hr1_4 c)))

include hr0 hr1_5 hr1_6 hr2_4 in
theorem v7_v13_0 (c : Dev nD) : V7 m ρ c main_v13_0
    = Gcn.hid2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (skip3 m ρ c main_v13_0 (by decide) (by decide)).trans (w6_v13_0 m ρ hr0 hr1_5 hr1_6 hr2_4 c)

/-- A buffer the first stretch wrote and nothing later writes reaches the fourth region as the first stretch left it. -/
theorem late (c : Dev nD) (b : Ref sig .tc) (h14 : b ≠ main_v14) (h15 : b ≠ main_v15) (h2 : ∀ w, Pipeline.arrRef spec2 w ≠ b)
    (h12 : b ≠ main_v12) (h1 : ∀ w, Pipeline.arrRef spec1 w ≠ b) (h10 : b ≠ main_v10) (h0 : ∀ w, Pipeline.arrRef spec0 w ≠ b) :
    V7 m ρ c b = W1 m ρ c (Proc.devRef .tc b) :=
  (skip3 m ρ c b h14 h15).trans ((W6_of_ne m ρ c b h2).trans ((skip2 m ρ c b h12).trans ((W4_of_ne m ρ c b h1).trans
    ((skip1 m ρ c b h10).trans (W2_of_ne m ρ c b h0)))))

theorem v7_v4 (c : Dev nD) : V7 m ρ c main_v4 = Gcn.rowSlab 256 0 (by omega) (m ((c : Thread nD τ).loc main_arg8)) :=
  (late m ρ c main_v4 (by decide) (by decide) (by decide) (by decide) (by decide) (by decide) (by decide)).trans (w1_v4 m ρ c)
theorem v7_v6 (c : Dev nD) : V7 m ρ c main_v6 = Gcn.rowSlab 256 256 (by omega) (m ((c : Thread nD τ).loc main_arg8)) :=
  (late m ρ c main_v6 (by decide) (by decide) (by decide) (by decide) (by decide) (by decide) (by decide)).trans (w1_v6 m ρ c)
theorem v7_v8 (c : Dev nD) : V7 m ρ c main_v8 = Gcn.rowSlab 128 512 (by omega) (m ((c : Thread nD τ).loc main_arg8)) :=
  (late m ρ c main_v8 (by decide) (by decide) (by decide) (by decide) (by decide) (by decide) (by decide)).trans (w1_v8 m ρ c)

include hr0 hr1_4 hr1_5 hr1_6 hr2_4 hr2_5 hr3 in
/-- THE RESULT: at the last boundary the result buffer holds the network of the ten launch arrays. -/
theorem result_eq (c : Dev nD) : W8 m ρ c (Proc.devRef .tc main_v16)
    = Gcn.net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) :=
  (W8_arr m ρ c 9).trans ((hr3 (V7 m ρ) c).trans (by
    rw [v7_v11_0 m ρ hr0 hr1_4 c, v7_v13_0 m ρ hr0 hr1_5 hr1_6 hr2_4 c, v7_v11_1 m ρ hr1_5 c,
      v7_v13_1 m ρ hr0 hr1_5 hr1_6 hr2_5 c, v7_v14 m ρ c, v7_v4 m ρ c, v7_v6 m ρ c, v7_v8 m ρ c, v7_v15 m ρ c]
    rfl))

end Chain

end Gcn.Thread

end
-- ==== Proof.RefLayers.lean ====
/-
  The reference's three graph-convolution layers, stage by stage, as the network's whole-array functions.

  Each dot_general is a matrix product read entry by entry (the sum over the contracted axis of the products); a bias
  vector is broadcast to one row and then down the rows, so the bias added at entry (p, q) is entry q of the vector;
  the rectifier is the maximum with the zero word's value broadcast to the whole array.  Nothing is re-associated:
  each layer is adj · (x · W) + b, spelt as the network spells it.
-/
import proofs.«162995_j33741263077612_2_alg».proof.Proof.RefRead
import proofs.«162995_j33741263077612_2_alg».proof.Proof.Spec
import proofs.«162995_j33741263077612_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Gcn.RefLayers

open Idealize.ShloMosaic Idealize.ShloMosaic.TcCoe Idealize.ShloMosaic.ValueIdx
open Cert.ReferenceIdeal Cert.ReferenceIdeal.ReadP

/-- A host product whose dimension numbers contract the left operand's columns with the right operand's rows, with
    no batch axes, is the matrix product: entry (p, q) is the sum over i of l (p, i) · r (i, q). -/
theorem dot_eq_mm {M K N : Nat} (d : DotDims ⟨2, ![M, K]⟩ ⟨2, ![K, N]⟩ ⟨2, ![M, N]⟩) (h : PlainDot.IsPlain d)
    (l : FVec Ideal ⟨2, ![M, K]⟩ .f32) (r : FVec Ideal ⟨2, ![K, N]⟩ .f32) :
    (Host.dotGeneral d none l r : A2 M N) = Gcn.mm (l : A2 M K) (r : A2 K N) := by
  funext j
  obtain ⟨p, q, rfl⟩ : ∃ (p : Fin M) (q : Fin N), j = ix2 p q := ⟨j 0, j 1, eq_ix2 j⟩
  exact PlainDot.dotGeneral_apply h none .single l r p q

/-- The first bias, broadcast to one row and then down the rows, adds entry q of the vector at (p, q). -/
theorem bias1_apply (x3 : (⟨S256, .f32⟩ : BufTy).Contents (Elt Ideal)) (p : Fin 16384) (q : Fin 256) :
    val_main_v3 (F := Ideal) x3 (ix2 p q) = (x3 : A1 256) (ix1 q) := by
  rw [val_main_v3_apply, val_main_v2_apply]
  exact congrArg x3 (funext fun a => Fin.ext (by match a with | ⟨0, _⟩ => rfl))

/-- The second bias, likewise. -/
theorem bias2_apply (x5 : (⟨S256, .f32⟩ : BufTy).Contents (Elt Ideal)) (p : Fin 16384) (q : Fin 256) :
    val_main_v9 (F := Ideal) x5 (ix2 p q) = (x5 : A1 256) (ix1 q) := by
  rw [val_main_v9_apply, val_main_v8_apply]
  exact congrArg x5 (funext fun a => Fin.ext (by match a with | ⟨0, _⟩ => rfl))

/-- The third bias, likewise. -/
theorem bias3_apply (x7 : (⟨S128, .f32⟩ : BufTy).Contents (Elt Ideal)) (p : Fin 16384) (q : Fin 128) :
    val_main_v15 (F := Ideal) x7 (ix2 p q) = (x7 : A1 128) (ix1 q) := by
  rw [val_main_v15_apply, val_main_v14_apply]
  exact congrArg x7 (funext fun a => Fin.ext (by match a with | ⟨0, _⟩ => rfl))

/-- The reference's first layer (its stage main_v5) is the network's first hidden layer. -/
theorem layer1_eq (x0 : (⟨S16384x512, .f32⟩ : BufTy).Contents (Elt Ideal)) (x1 : (⟨S16384x16384, .f32⟩ : BufTy).Contents (Elt Ideal)) (x2 : (⟨S512x256, .f32⟩ : BufTy).Contents (Elt Ideal)) (x3 : (⟨S256, .f32⟩ : BufTy).Contents (Elt Ideal)) :
    val_main_v5 (F := Ideal) x0 x1 x2 x3 = Gcn.hid1 x0 x1 x2 x3 := by
  have e0 : val_main_v0 (F := Ideal) x0 x2 = Gcn.mm (x0 : A2 16384 512) (x2 : A2 512 256) :=
    dot_eq_mm dot_S16384x512_S512x256_S16384x256_1_0_0_1_n_n ⟨rfl, rfl, rfl, rfl, rfl, rfl⟩ x0 x2
  have e1 : val_main_v1 (F := Ideal) x0 x1 x2 = Gcn.mm (x1 : A2 16384 16384) (Gcn.mm (x0 : A2 16384 512) (x2 : A2 512 256)) := by
    unfold val_main_v1
    rw [e0]
    exact dot_eq_mm dot_S16384x16384_S16384x256_S16384x256_1_0_0_1_n_n ⟨rfl, rfl, rfl, rfl, rfl, rfl⟩ x1 _
  funext j
  obtain ⟨p, q, rfl⟩ : ∃ (p : Fin 16384) (q : Fin 256), j = ix2 p q := ⟨j 0, j 1, eq_ix2 j⟩
  unfold Gcn.hid1
  rw [Gcn.layer_apply, val_main_v5_apply, val_main_v4_apply, e1, bias1_apply, val_main_call0_v0_apply,
    val_main_call0_cst_apply]
  rfl

/-- The reference's second layer (its stage main_v11) is the network's second hidden layer. -/
theorem layer2_eq (x0 : (⟨S16384x512, .f32⟩ : BufTy).Contents (Elt Ideal)) (x1 : (⟨S16384x16384, .f32⟩ : BufTy).Contents (Elt Ideal)) (x2 : (⟨S512x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) :
    val_main_v11 (F := Ideal) x0 x1 x2 x3 x4 x5 = Gcn.hid2 x0 x1 x2 x3 x4 x5 := by
  have e5 := layer1_eq x0 x1 x2 x3
  have e6 : val_main_v6 (F := Ideal) x0 x1 x2 x3 x4 = Gcn.mm (Gcn.hid1 x0 x1 x2 x3) (x4 : A2 256 256) := by
    unfold val_main_v6
    rw [e5]
    exact dot_eq_mm dot_S16384x256_S256x256_S16384x256_1_0_0_1_n_n ⟨rfl, rfl, rfl, rfl, rfl, rfl⟩ _ x4
  have e7 : val_main_v7 (F := Ideal) x0 x1 x2 x3 x4
      = Gcn.mm (x1 : A2 16384 16384) (Gcn.mm (Gcn.hid1 x0 x1 x2 x3) (x4 : A2 256 256)) := by
    unfold val_main_v7
    rw [e6]
    exact dot_eq_mm dot_S16384x16384_S16384x256_S16384x256_1_0_0_1_n_n ⟨rfl, rfl, rfl, rfl, rfl, rfl⟩ x1 _
  funext j
  obtain ⟨p, q, rfl⟩ : ∃ (p : Fin 16384) (q : Fin 256), j = ix2 p q := ⟨j 0, j 1, eq_ix2 j⟩
  unfold Gcn.hid2
  rw [Gcn.layer_apply, val_main_v11_apply, val_main_v10_apply, e7, bias2_apply, val_main_call1_v0_apply,
    val_main_call1_cst_apply]
  rfl

/-- The reference's third convolution (its stage main_v16) is the network's third convolution. -/
theorem layer3_eq (x0 : (⟨S16384x512, .f32⟩ : BufTy).Contents (Elt Ideal)) (x1 : (⟨S16384x16384, .f32⟩ : BufTy).Contents (Elt Ideal)) (x2 : (⟨S512x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) :
    val_main_v16 (F := Ideal) x0 x1 x2 x3 x4 x5 x6 x7 = Gcn.out3 x0 x1 x2 x3 x4 x5 x6 x7 := by
  have e11 := layer2_eq x0 x1 x2 x3 x4 x5
  have e12 : val_main_v12 (F := Ideal) x0 x1 x2 x3 x4 x5 x6 = Gcn.mm (Gcn.hid2 x0 x1 x2 x3 x4 x5) (x6 : A2 256 128) := by
    unfold val_main_v12
    rw [e11]
    exact dot_eq_mm dot_S16384x256_S256x128_S16384x128_1_0_0_1_n_n ⟨rfl, rfl, rfl, rfl, rfl, rfl⟩ _ x6
  have e13 : val_main_v13 (F := Ideal) x0 x1 x2 x3 x4 x5 x6
      = Gcn.mm (x1 : A2 16384 16384) (Gcn.mm (Gcn.hid2 x0 x1 x2 x3 x4 x5) (x6 : A2 256 128)) := by
    unfold val_main_v13
    rw [e12]
    exact dot_eq_mm dot_S16384x16384_S16384x128_S16384x128_1_0_0_1_n_n ⟨rfl, rfl, rfl, rfl, rfl, rfl⟩ x1 _
  funext j
  obtain ⟨p, q, rfl⟩ : ∃ (p : Fin 16384) (q : Fin 128), j = ix2 p q := ⟨j 0, j 1, eq_ix2 j⟩
  unfold Gcn.out3
  rw [Gcn.conv_apply, val_main_v16_apply, e13, bias3_apply]
  rfl

end Gcn.RefLayers

end
-- ==== Proof.RefLogits.lean ====
/-
  The reference's logits over its three layers' outputs, as the network's logits.

  The three layers' outputs (the layers module reads them as the network's) are joined side by side into a [16384, 640] array and multiplied
  by the classifier's weight: by the split law that product is the sum of the three products with the weight's row
  slabs, which is the form the network's logits are stated in.
-/
import proofs.«162995_j33741263077612_2_alg».proof.Proof.RefRead
import proofs.«162995_j33741263077612_2_alg».proof.Proof.Spec
import proofs.«162995_j33741263077612_2_alg».proof.Proof.LibPlainDot
import proofs.«162995_j33741263077612_2_alg».proof.Proof.RefLayers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Gcn.RefLogits

open Idealize.ShloMosaic Idealize.ShloMosaic.TcCoe Idealize.ShloMosaic.ValueIdx
open Cert.ReferenceIdeal Cert.ReferenceIdeal.ReadP

/-! ## Three arrays joined side by side, read at a column -/

/-- Column i < 256 of the joined [16384, 640] array is column i of the first piece. -/
theorem join3_left (h : Shape.Concatenates [S16384x256, S16384x256, S16384x128] S16384x640 1)
    (y1 y2 : Gcn.A2 16384 256) (y3 : Gcn.A2 16384 128) (p : Fin 16384) (i : Fin 256) (hi : i.val < 640) :
    concatenate S16384x640 1 [⟨S16384x256, y1⟩, ⟨S16384x256, y2⟩, ⟨S16384x128, y3⟩] h (ix2 p ⟨i.val, hi⟩)
      = y1 (ix2 p i) :=
  concatenate_apply_piece (t := S16384x640) (1 : Fin 2) [⟨S16384x256, y1⟩, ⟨S16384x256, y2⟩, ⟨S16384x128, y3⟩] h (ix2 p ⟨i.val, hi⟩) 0 (show (0 : Nat) < 3 by decide) S16384x256 y1 rfl rfl 0 rfl (ix2 p i)
    (fun b hb => by
      match b with
      | ⟨0, _⟩ => rfl
      | ⟨1, _⟩ => exact absurd (Fin.ext rfl) hb)
    (Nat.zero_add _)

/-- Column 256 + i of the joined array is column i of the second piece. -/
theorem join3_mid (h : Shape.Concatenates [S16384x256, S16384x256, S16384x128] S16384x640 1)
    (y1 y2 : Gcn.A2 16384 256) (y3 : Gcn.A2 16384 128) (p : Fin 16384) (i : Fin 256) (hi : 256 + i.val < 640) :
    concatenate S16384x640 1 [⟨S16384x256, y1⟩, ⟨S16384x256, y2⟩, ⟨S16384x128, y3⟩] h (ix2 p ⟨256 + i.val, hi⟩)
      = y2 (ix2 p i) :=
  concatenate_apply_piece (t := S16384x640) (1 : Fin 2) [⟨S16384x256, y1⟩, ⟨S16384x256, y2⟩, ⟨S16384x128, y3⟩] h (ix2 p ⟨256 + i.val, hi⟩) 1 (show (1 : Nat) < 3 by decide) S16384x256 y2 rfl rfl 256 rfl (ix2 p i)
    (fun b hb => by
      match b with
      | ⟨0, _⟩ => rfl
      | ⟨1, _⟩ => exact absurd (Fin.ext rfl) hb)
    rfl

/-- Column 256 + 256 + i of the joined array is column i of the third piece. -/
theorem join3_right (h : Shape.Concatenates [S16384x256, S16384x256, S16384x128] S16384x640 1)
    (y1 y2 : Gcn.A2 16384 256) (y3 : Gcn.A2 16384 128) (p : Fin 16384) (i : Fin 128) (hi : 256 + 256 + i.val < 640) :
    concatenate S16384x640 1 [⟨S16384x256, y1⟩, ⟨S16384x256, y2⟩, ⟨S16384x128, y3⟩] h (ix2 p ⟨256 + 256 + i.val, hi⟩)
      = y3 (ix2 p i) :=
  concatenate_apply_piece (t := S16384x640) (1 : Fin 2) [⟨S16384x256, y1⟩, ⟨S16384x256, y2⟩, ⟨S16384x128, y3⟩] h (ix2 p ⟨256 + 256 + i.val, hi⟩) 2 (show (2 : Nat) < 3 by decide) S16384x128 y3 rfl rfl 512 rfl (ix2 p i)
    (fun b hb => by
      match b with
      | ⟨0, _⟩ => rfl
      | ⟨1, _⟩ => exact absurd (Fin.ext rfl) hb)
    rfl

/-! ## The joined array times the weight -/

/-- The product of the joined array with a [640, 16] weight, at entry (p, q), is the sum of the three pieces' products
    with the weight's row slabs at rows 0, 256 and 512: the split law at extents 256, 256, 128. -/
theorem joined_mm (h : Shape.Concatenates [S16384x256, S16384x256, S16384x128] S16384x640 1)
    (y1 y2 : Gcn.A2 16384 256) (y3 : Gcn.A2 16384 128) (w : Gcn.A2 640 16)
    (h0 : 0 + 256 ≤ 640) (h1 : 256 + 256 ≤ 640) (h2 : 512 + 128 ≤ 640) (p : Fin 16384) (q : Fin 16) :
    Gcn.mm (concatenate S16384x640 1 [⟨S16384x256, y1⟩, ⟨S16384x256, y2⟩, ⟨S16384x128, y3⟩] h) w (ix2 p q)
      = (Gcn.mm y1 (Gcn.rowSlab 256 0 h0 w) (ix2 p q) + Gcn.mm y2 (Gcn.rowSlab 256 256 h1 w) (ix2 p q))
        + Gcn.mm y3 (Gcn.rowSlab 128 512 h2 w) (ix2 p q) :=
  Gcn.mm_split3 (h1 := 256) (h2 := 256) (h3 := 128) y1 y2 y3
    (concatenate S16384x640 1 [⟨S16384x256, y1⟩, ⟨S16384x256, y2⟩, ⟨S16384x128, y3⟩] h) w
    (Gcn.rowSlab 256 0 h0 w) (Gcn.rowSlab 256 256 h1 w) (Gcn.rowSlab 128 512 h2 w)
    (fun p i => join3_left h y1 y2 y3 p i _) (fun p i => join3_mid h y1 y2 y3 p i _)
    (fun p i => join3_right h y1 y2 y3 p i _)
    (fun i q => congrArg (fun r : Fin 640 => w (ix2 r q)) (Fin.ext (Nat.zero_add i.val)))
    (fun i q => rfl) (fun i q => rfl) p q

/-! ## The bias down the rows -/

/-- The bias vector made one row and then every row: at (p, q) it is entry q of the vector. -/
theorem bias_read (x9 : (⟨S16, .f32⟩ : BufTy).Contents (Elt Ideal)) (p : Fin 16384) (q : Fin 16) :
    val_main_v20 (F := Ideal) x9 (ix2 p q) = Gcn.rowOf x9 (ix2 0 q) := by
  rw [val_main_v20_apply, val_main_v19_apply]
  show x9 _ = x9 (ix1 q)
  exact congrArg x9 (funext fun a => Fin.ext (by
    match a with
    | ⟨0, _⟩ => rfl))

/-! ## The logits -/

/-- The reference's logits (its stage main_v21: the product of the side-by-side array with the weight, plus the bias) are
    the network's logits over the three layers' outputs and the weight's three row slabs. -/
theorem logits_eq (x0 : (⟨S16384x512, .f32⟩ : BufTy).Contents (Elt Ideal)) (x1 : (⟨S16384x16384, .f32⟩ : BufTy).Contents (Elt Ideal)) (x2 : (⟨S512x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S640x16, .f32⟩ : BufTy).Contents (Elt Ideal)) (x9 : (⟨S16, .f32⟩ : BufTy).Contents (Elt Ideal)) :
    val_main_v21 (F := Ideal) x0 x1 x2 x3 x4 x5 x6 x7 x8 x9
      = Gcn.logits3 (Gcn.hid1 x0 x1 x2 x3) (Gcn.hid2 x0 x1 x2 x3 x4 x5) (Gcn.out3 x0 x1 x2 x3 x4 x5 x6 x7)
          (Gcn.rowSlab 256 0 (by omega) x8) (Gcn.rowSlab 256 256 (by omega) x8) (Gcn.rowSlab 128 512 (by omega) x8) (Gcn.rowOf x9) := by
  unfold val_main_v21 val_main_v18 val_main_v17
  rw [Gcn.RefLayers.layer1_eq, Gcn.RefLayers.layer2_eq, Gcn.RefLayers.layer3_eq]
  generalize Gcn.hid1 x0 x1 x2 x3 = y1
  generalize Gcn.hid2 x0 x1 x2 x3 x4 x5 = y2
  generalize Gcn.out3 x0 x1 x2 x3 x4 x5 x6 x7 = y3
  funext j
  obtain ⟨p, q, rfl⟩ : ∃ (p : Fin 16384) (q : Fin 16), j = ix2 p q := ⟨j 0, j 1, eq_ix2 j⟩
  rw [addf_apply]
  show _ = ((Gcn.mm y1 _ (ix2 p q) + Gcn.mm y2 _ (ix2 p q)) + Gcn.mm y3 _ (ix2 p q)) + Gcn.rowOf x9 (ix2 0 q)
  refine congrArg₂ (· + ·) ?_ (bias_read x9 p q)
  refine (PlainDot.dotGeneral_apply ⟨rfl, rfl, rfl, rfl, rfl, rfl⟩ none .single _ x8 p q).trans ?_
  exact joined_mm _ y1 y2 y3 x8 _ _ _ p q

end Gcn.RefLogits

end
-- ==== Proof.RefSoftmax.lean ====
/-
  The reference's log-softmax call, stage by stage, as the row log-softmax of its logits.

  The call reduces each row by max from minus infinity, takes the maximum of that with minus infinity once more (which
  changes nothing: a fold is never below where it starts), subtracts it from the row, exponentiates, sums the row from
  zero, takes the logarithm and subtracts.  Entry by entry that is (l − rowmax) − log Σ exp (l − rowmax).
-/
import proofs.«162995_j33741263077612_2_alg».proof.Proof.RefRead
import proofs.«162995_j33741263077612_2_alg».proof.Proof.Spec
import proofs.«162995_j33741263077612_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Gcn.RefSoftmax

open Idealize.ShloMosaic Idealize.ShloMosaic.TcCoe Idealize.ShloMosaic.ValueIdx
open Cert.ReferenceIdeal Cert.ReferenceIdeal.ReadP

section Stages

variable (x0 : (⟨S16384x512, .f32⟩ : BufTy).Contents (Elt Ideal)) (x1 : (⟨S16384x16384, .f32⟩ : BufTy).Contents (Elt Ideal))
  (x2 : (⟨S512x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x128, .f32⟩ : BufTy).Contents (Elt Ideal)) (x7 : (⟨S128, .f32⟩ : BufTy).Contents (Elt Ideal))
  (x8 : (⟨S640x16, .f32⟩ : BufTy).Contents (Elt Ideal)) (x9 : (⟨S16, .f32⟩ : BufTy).Contents (Elt Ideal))

/-! ## The row maximum -/

/-- Dropping the column axis of a [16384, 16] array leaves a [16384] array. -/
theorem hred : S16384x16.Reduces [1] S16384 := by decide

/-- Row p with the column k put back is the entry (p, k). -/
theorem lift_row (h : S16384x16.Reduces [1] S16384) (p : Fin 16384) (k : Fin (S16384x16.size 1)) :
    h.lift (ix1 p) k = ix2 p (⟨k.val, k.isLt⟩ : Fin 16) := by
  funext c; apply Fin.ext
  fin_cases c <;> rfl

/-- A reduce with a maximum body over the columns, started at minus infinity's word, is at row p the fold of max
    over the row's sixteen entries from that word: the row maximum.  The body is commutative and associative, so
    the order of the fold does not matter. -/
theorem reduce_max_row (l : Gcn.A2 16384 16) (p : Fin 16384) :
    Host.reduce (FloatOps.maximumf (F := Ideal) (φ := .f32)) l (val_main_call2_cst (F := Ideal))
        Gen.reducesTo_S16384x16_S16384_d1 Gen.h_S_ (ix1 p) = Gcn.rowMax l p := by
  rw [Host.reduce_eq_fold_single (FloatOps.maximumf (F := Ideal) (φ := .f32)) l _ Gen.reducesTo_S16384x16_S16384_d1 hred Gen.h_S_]
  have hf : (l ∘ hred.lift (ix1 p)) = fun q : Fin 16 => l (ix2 p q) :=
    funext fun k => congrArg l (lift_row hred p k)
  exact congrArg (fun f => Finset.fold max Gcn.ninfE f (Finset.univ : Finset (Fin 16))) hf

/-- The call's first reduce, at row p, is the row maximum of the logits. -/
theorem rowmax_stage (p : Fin 16384) :
    val_main_call2_v0 (F := Ideal) x0 x1 x2 x3 x4 x5 x6 x7 x8 x9 (ix1 p)
      = Gcn.rowMax (val_main_v21 (F := Ideal) x0 x1 x2 x3 x4 x5 x6 x7 x8 x9) p := by
  unfold val_main_call2_v0
  generalize val_main_v21 (F := Ideal) x0 x1 x2 x3 x4 x5 x6 x7 x8 x9 = l
  exact reduce_max_row l p

/-- Taking the maximum of minus infinity's word with the row maximum changes nothing: the row maximum is a fold of
    max that starts at that word, and a fold is never below where it starts. -/
theorem rowmax2_stage (p : Fin 16384) :
    val_main_call2_v2 (F := Ideal) x0 x1 x2 x3 x4 x5 x6 x7 x8 x9 (ix1 p)
      = Gcn.rowMax (val_main_v21 (F := Ideal) x0 x1 x2 x3 x4 x5 x6 x7 x8 x9) p := by
  rw [val_main_call2_v2_apply, val_main_call2_v1_apply, val_main_call2_cst_0_apply,
    rowmax_stage x0 x1 x2 x3 x4 x5 x6 x7 x8 x9 p]
  generalize val_main_v21 (F := Ideal) x0 x1 x2 x3 x4 x5 x6 x7 x8 x9 = l
  exact Gcn.max_fold_start (Finset.univ : Finset (Fin 16)) Gcn.ninfE (fun q => l (ix2 p q))

/-! ## The shifted logits, the sum of their exponentials, its logarithm -/

/-- The shifted logits: entry (p, q) is the logit minus its row's maximum (the maximum is broadcast back along
    the row, so entry (p, q) reads it at row p). -/
theorem shift_stage (p : Fin 16384) (q : Fin 16) :
    val_main_call2_v5 (F := Ideal) x0 x1 x2 x3 x4 x5 x6 x7 x8 x9 (ix2 p q)
      = val_main_v21 (F := Ideal) x0 x1 x2 x3 x4 x5 x6 x7 x8 x9 (ix2 p q)
        - Gcn.rowMax (val_main_v21 (F := Ideal) x0 x1 x2 x3 x4 x5 x6 x7 x8 x9) p := by
  have e3 : idx_main_call2_v3 (idx_main_call2_v4 (ix2 p q)) = ix1 p :=
    funext fun a => Fin.ext (by match a with | ⟨0, _⟩ => rfl)
  rw [val_main_call2_v5_apply, val_main_call2_v4_apply, val_main_call2_v3_apply, e3,
    rowmax2_stage x0 x1 x2 x3 x4 x5 x6 x7 x8 x9 p]
  generalize val_main_v21 (F := Ideal) x0 x1 x2 x3 x4 x5 x6 x7 x8 x9 = l
  rfl

/-- The row's sum of exponentials of the shifted logits: the sum starts at the zero word, which is zero. -/
theorem sum_stage (p : Fin 16384) :
    val_main_call2_v7 (F := Ideal) x0 x1 x2 x3 x4 x5 x6 x7 x8 x9 (ix1 p)
      = ∑ q : Fin 16, Ideal.exp (val_main_v21 (F := Ideal) x0 x1 x2 x3 x4 x5 x6 x7 x8 x9 (ix2 p q)
        - Gcn.rowMax (val_main_v21 (F := Ideal) x0 x1 x2 x3 x4 x5 x6 x7 x8 x9) p) := by
  rw [val_main_call2_v7_apply, val_main_call2_cst_1_apply, Ideal.ofBits_def, Ideal.ofBits_zero_f32, zero_add]
  refine Finset.sum_congr rfl fun k _ => ?_
  have e7 : idx_main_call2_v7 (ix1 p) k = ix2 p k :=
    funext fun a => Fin.ext (by match a with | ⟨0, _⟩ => rfl | ⟨1, _⟩ => rfl)
  rw [e7, val_main_call2_v6_apply, Ideal.hostUnary_exp_def, shift_stage x0 x1 x2 x3 x4 x5 x6 x7 x8 x9 p k]

/-- The logarithm of that sum, broadcast back along the row: entry (p, q) is row p's log-sum-exp. -/
theorem lse_stage (p : Fin 16384) (q : Fin 16) :
    val_main_call2_v10 (F := Ideal) x0 x1 x2 x3 x4 x5 x6 x7 x8 x9 (ix2 p q)
      = Gcn.rowLse (val_main_v21 (F := Ideal) x0 x1 x2 x3 x4 x5 x6 x7 x8 x9) p := by
  have e8 : idx_main_call2_v8 (idx_main_call2_v10 (ix2 p q)) = ix1 p :=
    funext fun a => Fin.ext (by match a with | ⟨0, _⟩ => rfl)
  rw [val_main_call2_v10_apply, val_main_call2_v9_apply, val_main_call2_v8_apply, e8,
    sum_stage x0 x1 x2 x3 x4 x5 x6 x7 x8 x9 p, Ideal.hostUnary_log_def]
  generalize val_main_v21 (F := Ideal) x0 x1 x2 x3 x4 x5 x6 x7 x8 x9 = l
  rfl

end Stages

/-- The reference's result (its last stage) is the row log-softmax of its logits (stage main_v21). -/
theorem softmax_eq (x0 : (⟨S16384x512, .f32⟩ : BufTy).Contents (Elt Ideal)) (x1 : (⟨S16384x16384, .f32⟩ : BufTy).Contents (Elt Ideal)) (x2 : (⟨S512x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S640x16, .f32⟩ : BufTy).Contents (Elt Ideal)) (x9 : (⟨S16, .f32⟩ : BufTy).Contents (Elt Ideal)) :
    val_main_v22 (F := Ideal) x0 x1 x2 x3 x4 x5 x6 x7 x8 x9 = Gcn.logSoftmax (val_main_v21 (F := Ideal) x0 x1 x2 x3 x4 x5 x6 x7 x8 x9) := by
  funext j
  obtain ⟨p, q, rfl⟩ : ∃ (p : Fin 16384) (q : Fin 16), j = ix2 p q := ⟨j 0, j 1, eq_ix2 j⟩
  rw [val_main_v22_apply, shift_stage x0 x1 x2 x3 x4 x5 x6 x7 x8 x9 p q, lse_stage x0 x1 x2 x3 x4 x5 x6 x7 x8 x9 p q,
    Gcn.logSoftmax_apply]
  generalize val_main_v21 (F := Ideal) x0 x1 x2 x3 x4 x5 x6 x7 x8 x9 = l
  rfl

end Gcn.RefSoftmax

end
-- ==== Proof.RefValue.lean ====
/-
  The reference's result, as the network of its ten arguments.

  Its last stage is the row log-softmax of its logits, its logits are the network's logits over the three layers, and
  the network is by definition the row log-softmax of those logits.  The reference's run then ends with the result
  buffer at that network of the launch arrays, the arguments unchanged.
-/
import proofs.«162995_j33741263077612_2_alg».proof.Proof.RefRead
import proofs.«162995_j33741263077612_2_alg».proof.Proof.Spec
import proofs.«162995_j33741263077612_2_alg».proof.Proof.RefLogits
import proofs.«162995_j33741263077612_2_alg».proof.Proof.RefSoftmax

noncomputable section

namespace Gcn.RefValue

open Idealize.ShloMosaic Idealize.ShloMosaic.TcCoe Idealize.SL.Sem
open Cert.ReferenceIdeal Cert.ReferenceIdeal.ReadP

/-- The reference's last stage is the network of the ten arguments. -/
theorem value (x0 : (⟨S16384x512, .f32⟩ : BufTy).Contents (Elt Ideal)) (x1 : (⟨S16384x16384, .f32⟩ : BufTy).Contents (Elt Ideal)) (x2 : (⟨S512x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S640x16, .f32⟩ : BufTy).Contents (Elt Ideal)) (x9 : (⟨S16, .f32⟩ : BufTy).Contents (Elt Ideal)) :
    val_main_v22 (F := Ideal) x0 x1 x2 x3 x4 x5 x6 x7 x8 x9 = Gcn.net x0 x1 x2 x3 x4 x5 x6 x7 x8 x9 := by
  rw [Gcn.RefSoftmax.softmax_eq, Gcn.RefLogits.logits_eq]
  rfl

/-- The reference's run: every weakly fair execution terminates with the result buffer at the network of the launch
    arrays and every argument array as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22)
        = Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono
    (fun _ h c => ⟨(h c).1.trans ((val_main_v22_eq m c).trans (value _ _ _ _ _ _ _ _ _ _)), (h c).2⟩)
    (Cert.ReferenceIdeal.ValueP.run (F := Ideal) m ρ)

end Gcn.RefValue

end
-- ==== Proof.lean ====
/-
  The certificate: a three-layer graph-convolution network with a fused linear classifier and row log-softmax, computed
  by four tiled kernels, equals its plain reference over the extended reals.

  The kernel's program computes the support x · W₁ in row blocks, then per row block of the adjacency matrix the hidden
  layer max (adj · s + b) 0 together with the next layer's support, twice, and in its last kernel the third convolution,
  the classifier's logits as a sum of three products with the row slabs of its weight, and the shifted log-softmax.  On
  extended reals every change of float format is the identity, so the adjacency copy the second kernel makes is the
  adjacency itself.  Each kernel's output arrays are whole-array functions of its input arrays because every step is
  row-local (the region modules); chained through the host operations between them the result buffer holds the network
  of the specification (the threading module).  The reference computes the same network with one product against the
  side-by-side array of the three layers; that product is the sum of the three slab products, by commutativity and
  associativity of the sum alone, and its extra maximum with minus infinity changes nothing (the reference modules).
  No law used needs a finite entry, so the precondition is never opened.

  The three frames are the runs with their value conjunct dropped; there is no ledger entry to restate.
-/
import proofs.«162995_j33741263077612_2_alg».proof.Defs
import proofs.«162995_j33741263077612_2_alg».proof.Proof.Gen.Kernel
import proofs.«162995_j33741263077612_2_alg».proof.Proof.Gen.Kernel.Frame
import proofs.«162995_j33741263077612_2_alg».proof.Proof.Gen.KernelIdeal
import proofs.«162995_j33741263077612_2_alg».proof.Proof.Gen.KernelIdeal.Frame
import proofs.«162995_j33741263077612_2_alg».proof.Proof.Gen.ReferenceIdeal
import proofs.«162995_j33741263077612_2_alg».proof.Proof.Gen.Pre_finite_inputs
import proofs.«162995_j33741263077612_2_alg».proof.Proof.KernelRun
import proofs.«162995_j33741263077612_2_alg».proof.Proof.Region0
import proofs.«162995_j33741263077612_2_alg».proof.Proof.Region1
import proofs.«162995_j33741263077612_2_alg».proof.Proof.Region2
import proofs.«162995_j33741263077612_2_alg».proof.Proof.Region3
import proofs.«162995_j33741263077612_2_alg».proof.Proof.Thread
import proofs.«162995_j33741263077612_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Gcn.RefValue.run m ρ)

/-- Both programs end with the result buffer at the network of the launch arrays, which agree. -/
theorem algebraic : Cert.algebraic_KernelIdeal_ReferenceIdeal := by
  intro m ρ m' ρ' _ hagree
  refine ⟨fun c => Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Gcn.Thread.result_eq m ρ Gcn.Region0.value_2 Gcn.Region1.value_4 Gcn.Region1.value_5
          Gcn.Region1.value_6 Gcn.Region2.value_4 Gcn.Region2.value_5 Gcn.Region3.value_9 c), (h c).2⟩)
      (Cert.KernelIdeal.RunNamed.run_named (F := Ideal) m ρ)
  · refine (θ_run Cert.ReferenceIdeal.defs _ _).mono (fun r h c => ⟨?_, (h c).2⟩) (Gcn.RefValue.run m' ρ')
    obtain ⟨e0, e1, e2, e3, e4, e5, e6, e7, e8, e9⟩ := hagree c
    rw [(h c).1, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
